-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S_ : Shape := ⟨0, ![]⟩

class Facts : Prop where
  bcast_S_S128x200x8 : S_.BroadcastsInDim S128x200x8 (![] : Fin 0 → Fin S128x200x8.rank)
  reducesTo_S128x200x8_S_d0_1_2 : S128x200x8.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x200x8 .f32) (main_arg1 : FVec F S8x256 .f32) (main_arg2 : FVec F S256 .f32) (main_arg3 : FVec F S512x256 .f32) (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S128x200x8 .f32 := Host.absf main_arg0
  let main_cst : FVec F S_ .f32 := constant S_ .f32 0x7F800000#32
  let main_v1 : FVec F S128x200x8 .f32 := broadcastInDim S128x200x8 ![] bcast_S_S128x200x8 main_cst
  let main_v2 : IVec S128x200x8 1 := cmpf .olt main_v0 main_v1
  let main_c : IVec S_ 1 := constantI S_ 1 1#1
  let main_v3 : IVec S_ 1 := (fun x v => Host.reduce IntOp.andi x v reducesTo_S128x200x8_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S1x256 : Shape := ⟨2, ![1, 256]⟩
abbrev S128x1x256 : Shape := ⟨3, ![128, 1, 256]⟩
abbrev S128x200x200 : Shape := ⟨3, ![128, 200, 200]⟩
abbrev S8x200x8 : Shape := ⟨3, ![8, 200, 8]⟩
abbrev S8x1x256 : Shape := ⟨3, ![8, 1, 256]⟩
abbrev S8x200x200 : Shape := ⟨3, ![8, 200, 200]⟩
abbrev S1x200x8 : Shape := ⟨3, ![1, 200, 8]⟩
abbrev S200x8 : Shape := ⟨2, ![200, 8]⟩
abbrev S200x256 : Shape := ⟨2, ![200, 256]⟩
abbrev S200x200 : Shape := ⟨2, ![200, 200]⟩
abbrev S200 : Shape := ⟨1, ![200]⟩
abbrev S200x1 : Shape := ⟨2, ![200, 1]⟩
abbrev S1x1x256 : Shape := ⟨3, ![1, 1, 256]⟩
abbrev S1x200x200 : Shape := ⟨3, ![1, 200, 200]⟩
abbrev S128x256 : Shape := ⟨2, ![128, 256]⟩

abbrev nBuf : Space → Nat
  | .hbm => 29
  | .vmem => 18
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x8, .bf16⟩
  | .hbm, ⟨14, _⟩ => ⟨S8x256, .bf16⟩
  | .hbm, ⟨15, _⟩ => ⟨S512x256, .bf16⟩
  | .hbm, ⟨16, _⟩ => ⟨S512x256, .bf16⟩
  | .hbm, ⟨17, _⟩ => ⟨S512x256, .bf16⟩
  | .hbm, ⟨18, _⟩ => ⟨S256x256, .bf16⟩
  | .hbm, ⟨19, _⟩ => ⟨S256x256, .bf16⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S128x1x256, .f32⟩
  | .hbm, ⟨27, _⟩ => ⟨S128x200x200, .f32⟩
  | .hbm, ⟨28, _⟩ => ⟨S128x256, .f32⟩
  | .local _ .vmem, ⟨0, _⟩ => ⟨S8x200x8, .bf16⟩
  | .local _ .vmem, ⟨1, _⟩ => ⟨S8x200x8, .bf16⟩
  | .local _ .vmem, ⟨2, _⟩ => ⟨S8x256, .bf16⟩
  | .local _ .vmem, ⟨3, _⟩ => ⟨S1x256, .f32⟩
  | .local _ .vmem, ⟨4, _⟩ => ⟨S512x256, .bf16⟩
  | .local _ .vmem, ⟨5, _⟩ => ⟨S1x256, .f32⟩
  | .local _ .vmem, ⟨6, _⟩ => ⟨S512x256, .bf16⟩
  | .local _ .vmem, ⟨7, _⟩ => ⟨S1x256, .f32⟩
  | .local _ .vmem, ⟨8, _⟩ => ⟨S512x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S8x1x256, .f32⟩
  | .local _ .vmem, ⟨15, _⟩ => ⟨S8x1x256, .f32⟩
  | .local _ .vmem, ⟨16, _⟩ => ⟨S8x200x200, .f32⟩
  | .local _ .vmem, ⟨17, _⟩ => ⟨S8x200x200, .f32⟩
  | _, _ => ⟨S128x200x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x200x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x200x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  shapeCasts_S256_S1x256 : S256.ShapeCasts S1x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x200x8_S1x200x8_0_0_0 : ∀ a, (![0, 0, 0] : Fin 3 → Nat) a + S1x200x8.size a ≤ S8x200x8.size a
  h_S1x200x8 : 0 < S1x200x8.numel
  shapeCasts_S1x200x8_S200x8 : S1x200x8.ShapeCasts S200x8
  broadcasts_S1x256_S200x256 : S1x256.Broadcasts S200x256
  inb_S8x200x8_S1x200x8_1_0_0 : ∀ a, (![1, 0, 0] : Fin 3 → Nat) a + S1x200x8.size a ≤ S8x200x8.size a
  inb_S8x200x8_S1x200x8_2_0_0 : ∀ a, (![2, 0, 0] : Fin 3 → Nat) a + S1x200x8.size a ≤ S8x200x8.size a
  inb_S8x200x8_S1x200x8_3_0_0 : ∀ a, (![3, 0, 0] : Fin 3 → Nat) a + S1x200x8.size a ≤ S8x200x8.size a
  inb_S8x200x8_S1x200x8_4_0_0 : ∀ a, (![4, 0, 0] : Fin 3 → Nat) a + S1x200x8.size a ≤ S8x200x8.size a
  inb_S8x200x8_S1x200x8_5_0_0 : ∀ a, (![5, 0, 0] : Fin 3 → Nat) a + S1x200x8.size a ≤ S8x200x8.size a
  inb_S8x200x8_S1x200x8_6_0_0 : ∀ a, (![6, 0, 0] : Fin 3 → Nat) a + S1x200x8.size a ≤ S8x200x8.size a
  inb_S8x200x8_S1x200x8_7_0_0 : ∀ a, (![7, 0, 0] : Fin 3 → Nat) a + S1x200x8.size a ≤ S8x200x8.size a
  reduces_S200x200_S200 : S200x200.Reduces [1] S200
  shapeCasts_S200_S200x1 : S200.ShapeCasts S200x1
  broadcasts_S200x1_S200x200 : S200x1.Broadcasts S200x200
  slices_S512x256_o0_0_S256x256 : S512x256.Slices ![0, 0] S256x256
  slices_S512x256_o256_0_S256x256 : S512x256.Slices ![256, 0] S256x256
  reduces_S200x256_S256 : S200x256.Reduces [0] S256
  inb_S8x1x256_S1x1x256_0_0_0 : ∀ a, (![0, 0, 0] : Fin 3 → Nat) a + S1x1x256.size a ≤ S8x1x256.size a
  h_S1x1x256 : 0 < S1x1x256.numel
  shapeCasts_S1x1x256_S1x256 : S1x1x256.ShapeCasts S1x256
  shapeCasts_S1x256_S1x1x256 : S1x256.ShapeCasts S1x1x256
  inb_S8x200x200_S1x200x200_0_0_0 : ∀ a, (![0, 0, 0] : Fin 3 → Nat) a + S1x200x200.size a ≤ S8x200x200.size a
  h_S1x200x200 : 0 < S1x200x200.numel
  shapeCasts_S1x200x200_S200x200 : S1x200x200.ShapeCasts S200x200
  shapeCasts_S200x200_S1x200x200 : S200x200.ShapeCasts S1x200x200
  inb_S8x1x256_S1x1x256_1_0_0 : ∀ a, (![1, 0, 0] : Fin 3 → Nat) a + S1x1x256.size a ≤ S8x1x256.size a
  inb_S8x200x200_S1x200x200_1_0_0 : ∀ a, (![1, 0, 0] : Fin 3 → Nat) a + S1x200x200.size a ≤ S8x200x200.size a
  inb_S8x1x256_S1x1x256_2_0_0 : ∀ a, (![2, 0, 0] : Fin 3 → Nat) a + S1x1x256.size a ≤ S8x1x256.size a
  inb_S8x200x200_S1x200x200_2_0_0 : ∀ a, (![2, 0, 0] : Fin 3 → Nat) a + S1x200x200.size a ≤ S8x200x200.size a
  inb_S8x1x256_S1x1x256_3_0_0 : ∀ a, (![3, 0, 0] : Fin 3 → Nat) a + S1x1x256.size a ≤ S8x1x256.size a
  inb_S8x200x200_S1x200x200_3_0_0 : ∀ a, (![3, 0, 0] : Fin 3 → Nat) a + S1x200x200.size a ≤ S8x200x200.size a
  inb_S8x1x256_S1x1x256_4_0_0 : ∀ a, (![4, 0, 0] : Fin 3 → Nat) a + S1x1x256.size a ≤ S8x1x256.size a
  inb_S8x200x200_S1x200x200_4_0_0 : ∀ a, (![4, 0, 0] : Fin 3 → Nat) a + S1x200x200.size a ≤ S8x200x200.size a
  inb_S8x1x256_S1x1x256_5_0_0 : ∀ a, (![5, 0, 0] : Fin 3 → Nat) a + S1x1x256.size a ≤ S8x1x256.size a
  inb_S8x200x200_S1x200x200_5_0_0 : ∀ a, (![5, 0, 0] : Fin 3 → Nat) a + S1x200x200.size a ≤ S8x200x200.size a
  inb_S8x1x256_S1x1x256_6_0_0 : ∀ a, (![6, 0, 0] : Fin 3 → Nat) a + S1x1x256.size a ≤ S8x1x256.size a
  inb_S8x200x200_S1x200x200_6_0_0 : ∀ a, (![6, 0, 0] : Fin 3 → Nat) a + S1x200x200.size a ≤ S8x200x200.size a
  inb_S8x1x256_S1x1x256_7_0_0 : ∀ a, (![7, 0, 0] : Fin 3 → Nat) a + S1x1x256.size a ≤ S8x1x256.size a
  inb_S8x200x200_S1x200x200_7_0_0 : ∀ a, (![7, 0, 0] : Fin 3 → Nat) a + S1x200x200.size a ≤ S8x200x200.size a
  shapeCasts_S128x1x256_S128x256 : S128x1x256.ShapeCasts S128x256
  dot_S200x8_S8x256_S200x256_1_0_0_1_n_n_wf : DotDims.WF S200x8 S8x256 S200x256 [1] [0] [0] [1] [] []
  dot_S200x256_S200x256_S200x200_1_1_0_0_n_n_wf : DotDims.WF S200x256 S200x256 S200x200 [1] [1] [0] [0] [] []
  dot_S200x200_S200x256_S200x256_1_0_0_1_n_n_wf : DotDims.WF S200x200 S200x256 S200x256 [1] [0] [0] [1] [] []
  dot_S200x256_S256x256_S200x256_1_0_0_1_n_n_wf : DotDims.WF S200x256 S256x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x200x8.size a ≤ S128x200x8.size a
  hwx0_0 : ∀ i : grid0.Coords, EltTy.bits .bf16 = 32 ∨ (Rect.block (s := S128x200x8) S8x200x8.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .bf16 = 32 ∨ (Rect.block (s := S8x256) S8x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x1x256.size a ≤ S128x1x256.size a
  hwx0_13 : ∀ i : grid0.Coords, EltTy.bits .f32 = 32 ∨ (Rect.block (s := S128x1x256) S8x1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x200x200.size a ≤ S128x200x200.size a
  hwx0_14 : ∀ i : grid0.Coords, EltTy.bits .f32 = 32 ∨ (Rect.block (s := S128x200x200) S8x200x200.size (cc0_transform_14 i) (hinb0_14 i)).WholeWords (EltTy.packing .f32)

variable [Facts₀]

def dot_S200x8_S8x256_S200x256_1_0_0_1_n_n : DotDims S200x8 S8x256 S200x256 where
  lhsContracting := [1]
  rhsContracting := [0]
  lhsNonContracting := [0]
  rhsNonContracting := [1]
  lhsBatch := []
  rhsBatch := []
  wf := dot_S200x8_S8x256_S200x256_1_0_0_1_n_n_wf
def dot_S200x256_S200x256_S200x200_1_1_0_0_n_n : DotDims S200x256 S200x256 S200x200 where
  lhsContracting := [1]
  rhsContracting := [1]
  lhsNonContracting := [0]
  rhsNonContracting := [0]
  lhsBatch := []
  rhsBatch := []
  wf := dot_S200x256_S200x256_S200x200_1_1_0_0_n_n_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_v0) S8x200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13_0) S8x1x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v13_1) S8x200x200.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S128x200x256 : Shape := ⟨3, ![128, 200, 256]⟩
abbrev S1x1x256 : Shape := ⟨3, ![1, 1, 256]⟩
abbrev S_ : Shape := ⟨0, ![]⟩
abbrev S128x200x200 : Shape := ⟨3, ![128, 200, 200]⟩
abbrev S128x200 : Shape := ⟨2, ![128, 200]⟩
abbrev S128x200x1 : Shape := ⟨3, ![128, 200, 1]⟩
abbrev S128x200x512 : Shape := ⟨3, ![128, 200, 512]⟩
abbrev S128x256 : Shape := ⟨2, ![128, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x256, .f32⟩
  | .hbm, ⟨14, _⟩ => ⟨S1x1x256, .f32⟩
  | .hbm, ⟨15, _⟩ => ⟨S128x200x256, .f32⟩
  | .hbm, ⟨16, _⟩ => ⟨S128x200x256, .f32⟩
  | .hbm, ⟨17, _⟩ => ⟨S128x200x256, .f32⟩
  | .hbm, ⟨18, _⟩ => ⟨S_, .f32⟩
  | .hbm, ⟨19, _⟩ => ⟨S128x200x200, .f32⟩
  | .hbm, ⟨20, _⟩ => ⟨S128x200x200, .f32⟩
  | .hbm, ⟨21, _⟩ => ⟨S_, .f32⟩
  | .hbm, ⟨22, _⟩ => ⟨S128x200x200, .f32⟩
  | .hbm, ⟨23, _⟩ => ⟨S128x200x200, .f32⟩
  | .hbm, ⟨24, _⟩ => ⟨S_, .f32⟩
  | .hbm, ⟨25, _⟩ => ⟨S128x200, .f32⟩
  | .hbm, ⟨26, _⟩ => ⟨S_, .f32⟩
  | .hbm, ⟨27, _⟩ => ⟨S128x200, .f32⟩
  | .hbm, ⟨28, _⟩ => ⟨S128x200, .f32⟩
  | .hbm, ⟨29, _⟩ => ⟨S128x200x1, .f32⟩
  | .hbm, ⟨30, _⟩ => ⟨S128x200x200, .f32⟩
  | .hbm, ⟨31, _⟩ => ⟨S128x200x200, .f32⟩
  | .hbm, ⟨32, _⟩ => ⟨S128x200x200, .f32⟩
  | .hbm, ⟨33, _⟩ => ⟨S_, .f32⟩
  | .hbm, ⟨34, _⟩ => ⟨S128x200, .f32⟩
  | .hbm, ⟨35, _⟩ => ⟨S128x200x1, .f32⟩
  | .hbm, ⟨36, _⟩ => ⟨S128x200x200, .f32⟩
  | .hbm, ⟨37, _⟩ => ⟨S128x200x200, .f32⟩
  | .hbm, ⟨38, _⟩ => ⟨S128x200x256, .f32⟩
  | .hbm, ⟨39, _⟩ => ⟨S128x200x512, .f32⟩
  | .hbm, ⟨40, _⟩ => ⟨S128x200x256, .f32⟩
  | .hbm, ⟨41, _⟩ => ⟨S1x1x256, .f32⟩
  | .hbm, ⟨42, _⟩ => ⟨S128x200x256, .f32⟩
  | .hbm, ⟨43, _⟩ => ⟨S128x200x256, .f32⟩
  | .hbm, ⟨44, _⟩ => ⟨S128x200x256, .f32⟩
  | .hbm, ⟨45, _⟩ => ⟨S128x200x200, .f32⟩
  | .hbm, ⟨46, _⟩ => ⟨S_, .f32⟩
  | .hbm, ⟨47, _⟩ => ⟨S128x200x200, .f32⟩
  | .hbm, ⟨48, _⟩ => ⟨S128x200x200, .f32⟩
  | .hbm, ⟨49, _⟩ => ⟨S_, .f32⟩
  | .hbm, ⟨50, _⟩ => ⟨S128x200, .f32⟩
  | .hbm, ⟨51, _⟩ => ⟨S_, .f32⟩
  | .hbm, ⟨52, _⟩ => ⟨S128x200, .f32⟩
  | .hbm, ⟨53, _⟩ => ⟨S128x200, .f32⟩
  | .hbm, ⟨54, _⟩ => ⟨S128x200x1, .f32⟩
  | .hbm, ⟨55, _⟩ => ⟨S128x200x200, .f32⟩
  | .hbm, ⟨56, _⟩ => ⟨S128x200x200, .f32⟩
  | .hbm, ⟨57, _⟩ => ⟨S128x200x200, .f32⟩
  | .hbm, ⟨58, _⟩ => ⟨S_, .f32⟩
  | .hbm, ⟨59, _⟩ => ⟨S128x200, .f32⟩
  | .hbm, ⟨60, _⟩ => ⟨S128x200x1, .f32⟩
  | .hbm, ⟨61, _⟩ => ⟨S128x200x200, .f32⟩
  | .hbm, ⟨62, _⟩ => ⟨S128x200x200, .f32⟩
  | .hbm, ⟨63, _⟩ => ⟨S128x200x256, .f32⟩
  | .hbm, ⟨64, _⟩ => ⟨S128x200x512, .f32⟩
  | .hbm, ⟨65, _⟩ => ⟨S128x200x256, .f32⟩
  | .hbm, ⟨66, _⟩ => ⟨S1x1x256, .f32⟩
  | .hbm, ⟨67, _⟩ => ⟨S128x200x256, .f32⟩
  | .hbm, ⟨68, _⟩ => ⟨S128x200x256, .f32⟩
  | .hbm, ⟨69, _⟩ => ⟨S128x200x256, .f32⟩
  | .hbm, ⟨70, _⟩ => ⟨S128x200x200, .f32⟩
  | .hbm, ⟨71, _⟩ => ⟨S_, .f32⟩
  | .hbm, ⟨72, _⟩ => ⟨S128x200x200, .f32⟩
  | .hbm, ⟨73, _⟩ => ⟨S128x200x200, .f32⟩
  | .hbm, ⟨74, _⟩ => ⟨S_, .f32⟩
  | .hbm, ⟨75, _⟩ => ⟨S128x200, .f32⟩
  | .hbm, ⟨76, _⟩ => ⟨S_, .f32⟩
  | .hbm, ⟨77, _⟩ => ⟨S128x200, .f32⟩
  | .hbm, ⟨78, _⟩ => ⟨S128x200, .f32⟩
  | .hbm, ⟨79, _⟩ => ⟨S128x200x1, .f32⟩
  | .hbm, ⟨80, _⟩ => ⟨S128x200x200, .f32⟩
  | .hbm, ⟨81, _⟩ => ⟨S128x200x200, .f32⟩
  | .hbm, ⟨82, _⟩ => ⟨S128x200x200, .f32⟩
  | .hbm, ⟨83, _⟩ => ⟨S_, .f32⟩
  | .hbm, ⟨84, _⟩ => ⟨S128x200, .f32⟩
  | .hbm, ⟨85, _⟩ => ⟨S128x200x1, .f32⟩
  | .hbm, ⟨86, _⟩ => ⟨S128x200x200, .f32⟩
  | .hbm, ⟨87, _⟩ => ⟨S128x200x200, .f32⟩
  | .hbm, ⟨88, _⟩ => ⟨S128x200x256, .f32⟩
  | .hbm, ⟨89, _⟩ => ⟨S128x200x512, .f32⟩
  | .hbm, ⟨90, _⟩ => ⟨S128x200x256, .f32⟩
  | .hbm, ⟨91, _⟩ => ⟨S1x1x256, .f32⟩
  | .hbm, ⟨92, _⟩ => ⟨S128x200x256, .f32⟩
  | .hbm, ⟨93, _⟩ => ⟨S128x200x256, .f32⟩
  | .hbm, ⟨94, _⟩ => ⟨S128x200x256, .f32⟩
  | .hbm, ⟨95, _⟩ => ⟨S128x200x256, .f32⟩
  | .hbm, ⟨96, _⟩ => ⟨S1x1x256, .f32⟩
  | .hbm, ⟨97, _⟩ => ⟨S128x200x256, .f32⟩
  | .hbm, ⟨98, _⟩ => ⟨S128x200x256, .f32⟩
  | .hbm, ⟨99, _⟩ => ⟨S128x200x256, .f32⟩
  | .hbm, ⟨100, _⟩ => ⟨S128x200x256, .f32⟩
  | .hbm, ⟨101, _⟩ => ⟨S1x1x256, .f32⟩
  | .hbm, ⟨102, _⟩ => ⟨S128x200x256, .f32⟩
  | .hbm, ⟨103, _⟩ => ⟨S128x200x256, .f32⟩
  | .hbm, ⟨104, _⟩ => ⟨S_, .f32⟩
  | .hbm, ⟨105, _⟩ => ⟨S128x256, .f32⟩
  | _, _ => ⟨S128x200x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x200x256_0_1_2 : S1x1x256.BroadcastsInDim S128x200x256 (![0, 1, 2] : Fin 3 → Fin S128x200x256.rank)
  bcast_S_S128x200x200 : S_.BroadcastsInDim S128x200x200 (![] : Fin 0 → Fin S128x200x200.rank)
  reducesTo_S128x200x200_S128x200_d2 : S128x200x200.ReducesTo [2] S128x200
  h_S_ : 0 < S_.numel
  bcast_S_S128x200 : S_.BroadcastsInDim S128x200 (![] : Fin 0 → Fin S128x200.rank)
  bcast_S128x200_S128x200x1_0_1 : S128x200.BroadcastsInDim S128x200x1 (![0, 1] : Fin 2 → Fin S128x200x1.rank)
  bcast_S128x200x1_S128x200x200_0_1_2 : S128x200x1.BroadcastsInDim S128x200x200 (![0, 1, 2] : Fin 3 → Fin S128x200x200.rank)
  concatenates_S128x200x256_S128x200x256_S128x200x512_d2 : Shape.Concatenates [S128x200x256, S128x200x256] S128x200x512 2
  reducesTo_S128x200x256_S128x256_d1 : S128x200x256.ReducesTo [1] S128x256
  dot_S128x200x8_S8x256_S128x200x256_2_0_01_1_n_n_wf : DotDims.WF S128x200x8 S8x256 S128x200x256 [2] [0] [0, 1] [1] [] []
  dot_S128x200x256_S128x200x256_S128x200x200_2_2_1_1_0_0_wf : DotDims.WF S128x200x256 S128x200x256 S128x200x200 [2] [2] [1] [1] [0] [0]
  dot_S128x200x200_S128x200x256_S128x200x256_2_1_1_2_0_0_wf : DotDims.WF S128x200x200 S128x200x256 S128x200x256 [2] [1] [1] [2] [0] [0]
  dot_S128x200x512_S512x256_S128x200x256_2_0_01_1_n_n_wf : DotDims.WF S128x200x512 S512x256 S128x200x256 [2] [0] [0, 1] [1] [] []
  dot_S128x200x256_S256x256_S128x200x256_2_0_01_1_n_n_wf : DotDims.WF S128x200x256 S256x256 S128x200x256 [2] [0] [0, 1] [1] [] []

variable [Facts₀]

def dot_S128x200x8_S8x256_S128x200x256_2_0_01_1_n_n : DotDims S128x200x8 S8x256 S128x200x256 where
  lhsContracting := [2]
  rhsContracting := [0]
  lhsNonContracting := [0, 1]
  rhsNonContracting := [1]
  lhsBatch := []
  rhsBatch := []
  wf := dot_S128x200x8_S8x256_S128x200x256_2_0_01_1_n_n_wf
def dot_S128x200x256_S128x200x256_S128x200x200_2_2_1_1_0_0 : DotDims S128x200x256 S128x200x256 S128x200x200 where
  lhsContracting := [2]
  rhsContracting := [2]
  lhsNonContracting := [1]
  rhsNonContracting := [1]
  lhsBatch := [0]
  rhsBatch := [0]
  wf := dot_S128x200x256_S128x200x256_S128x200x200_2_2_1_1_0_0_wf
def dot_S128x200x200_S128x200x256_S128x200x256_2_1_1_2_0_0 : DotDims S128x200x200 S128x200x256 S128x200x256 where
  lhsContracting := [2]
  rhsContracting := [1]
  lhsNonContracting := [1]
  rhsNonContracting := [2]
  lhsBatch := [0]
  rhsBatch := [0]
  wf := dot_S128x200x200_S128x200x256_S128x200x256_2_1_1_2_0_0_wf
def dot_S128x200x512_S512x256_S128x200x256_2_0_01_1_n_n : DotDims S128x200x512 S512x256 S128x200x256 where
  lhsContracting := [2]
  rhsContracting := [0]
  lhsNonContracting := [0, 1]
  rhsNonContracting := [1]
  lhsBatch := []
  rhsBatch := []
  wf := dot_S128x200x512_S512x256_S128x200x256_2_0_01_1_n_n_wf
def dot_S128x200x256_S256x256_S128x200x256_2_0_01_1_n_n : DotDims S128x200x256 S256x256 S128x200x256 where
  lhsContracting := [2]
  rhsContracting := [0]
  lhsNonContracting := [0, 1]
  rhsNonContracting := [1]
  lhsBatch := []
  rhsBatch := []
  wf := dot_S128x200x256_S256x256_S128x200x256_2_0_01_1_n_n_wf

class Facts : Prop extends Facts₀ where

variable [Facts]
-- ==== Proof.JetOps.lean ====
/-
  One jet's chain of vector operations, as the kernel body spells it, and the body's sixteen stores over it.

  The body treats its eight jets alike: each is embedded, passed through three rounds (scores, the rows'
  weights, messages, the update through the two halves of the round's weight) and read out. The generated
  skeleton cuts each jet's chain into payload functions at places that differ from jet to jet; put back
  together, every jet's chain is the same composition, which this module writes once (`lastWeightsV`,
  `readoutV`) and identifies with the skeleton's terms by unfolding both.
-/
import proofs.«170520_g85813446574462_cont_9to1c4b_288_15_alg».proof.Proof.Gen.KernelIdeal.Frame

set_option maxRecDepth 16384

noncomputable section

namespace Cert.KernelIdeal.Jet

open Idealize.ShloMosaic Idealize.SL.Sem Cert.KernelIdeal Cert.KernelIdeal.Gen

variable {F : FTy → Type} [FloatOps F]

/-- The embedding: the jet's 200 × 8 features times the 8 × 256 weight, plus the bias row, under tanh. -/
def embedV (wE : FVec F S8x256 .bf16) (bE : FVec F S1x256 .f32) (x : Vec F S1x200x8 .bf16) : FVec F S200x256 .bf16 :=
  truncf .bf16 (tanh (addf
    (matmul dot_S200x8_S8x256_S200x256_1_0_0_1_n_n none (shapeCast S200x8 x shapeCasts_S1x200x8_S200x8) wE (constant S200x256 .f32 0x00000000#32))
    (broadcastTo S200x256 bE broadcasts_S1x256_S200x256))) bitsLt_bf16_f32

/-- The scores: the hidden rows' inner products, scaled. -/
def scoreV (h : FVec F S200x256 .bf16) : FVec F S200x200 .f32 :=
  mulf (matmul dot_S200x256_S200x256_S200x200_1_1_0_0_n_n none h h (constant S200x200 .f32 0x00000000#32))
    (broadcast S200x200 (Scalar.ofBits .f32 0x3D800000#32))

/-- The exponentials of the scores less their row's greatest. -/
def expV (l : FVec F S200x200 .f32) : FVec F S200x200 .f32 :=
  exp (subf l (broadcastTo S200x200
    (shapeCast S200x1 (multiReduction .maximumf [1] S200 l 0xFF800000#32 reduces_S200x200_S200 (.inl rfl) rfl) shapeCasts_S200_S200x1)
    broadcasts_S200x1_S200x200))

/-- Each row over its sum. -/
def normV (e : FVec F S200x200 .f32) : FVec F S200x200 .f32 :=
  divf e (broadcastTo S200x200
    (shapeCast S200x1 (multiReduction .add [1] S200 e 0x00000000#32 reduces_S200x200_S200 (.inl rfl) rfl) shapeCasts_S200_S200x1)
    broadcasts_S200x1_S200x200)

/-- The rows' weights from the hidden rows. -/
def weightsV (h : FVec F S200x256 .bf16) : FVec F S200x200 .f32 := normV (expV (scoreV h))

/-- The update: the hidden rows through the weight's first 256 rows, the messages through its last 256, the bias, tanh. -/
def updateV (w : FVec F S512x256 .bf16) (b : FVec F S1x256 .f32) (h : FVec F S200x256 .bf16) (a : FVec F S200x200 .f32) :
    FVec F S200x256 .bf16 :=
  truncf .bf16 (tanh (addf (addf
    (matmul dot_S200x256_S256x256_S200x256_1_0_0_1_n_n none h
      (extractStridedSlice S256x256 ![0, 0] w slices_S512x256_o0_0_S256x256) (constant S200x256 .f32 0x00000000#32))
    (matmul dot_S200x256_S256x256_S200x256_1_0_0_1_n_n none
      (truncf .bf16 (matmul dot_S200x200_S200x256_S200x256_1_0_0_1_n_n none (truncf .bf16 a bitsLt_bf16_f32) h
        (constant S200x256 .f32 0x00000000#32)) bitsLt_bf16_f32)
      (extractStridedSlice S256x256 ![256, 0] w slices_S512x256_o256_0_S256x256) (constant S200x256 .f32 0x00000000#32)))
    (broadcastTo S200x256 b broadcasts_S1x256_S200x256))) bitsLt_bf16_f32

/-- One round. -/
def roundV (w : FVec F S512x256 .bf16) (b : FVec F S1x256 .f32) (h : FVec F S200x256 .bf16) : FVec F S200x256 .bf16 :=
  updateV w b h (weightsV h)

/-- The read-out's first layer. -/
def readHiddenV (w : FVec F S256x256 .bf16) (b : FVec F S1x256 .f32) (h : FVec F S200x256 .bf16) : FVec F S200x256 .bf16 :=
  truncf .bf16 (tanh (addf
    (matmul dot_S200x256_S256x256_S200x256_1_0_0_1_n_n none h w (constant S200x256 .f32 0x00000000#32))
    (broadcastTo S200x256 b broadcasts_S1x256_S200x256))) bitsLt_bf16_f32

/-- The read-out's second layer summed down the nodes, plus 200 times its bias. -/
def pooledV (w : FVec F S256x256 .bf16) (b : FVec F S1x256 .f32) (r : FVec F S200x256 .bf16) : FVec F S1x256 .f32 :=
  addf
    (shapeCast S1x256 (multiReduction .add [0] S256
      (matmul dot_S200x256_S256x256_S200x256_1_0_0_1_n_n none r w (constant S200x256 .f32 0x00000000#32))
      0x00000000#32 reduces_S200x256_S256 (.inl rfl) rfl) shapeCasts_S256_S1x256)
    (mulf (broadcast S1x256 (Scalar.ofBits .f32 0x43480000#32)) b)

/-- The weights as the body holds them after its loads. -/
structure Loaded (F : FTy → Type) [FloatOps F] where
  wE : FVec F S8x256 .bf16
  bE : FVec F S1x256 .f32
  w0 : FVec F S512x256 .bf16
  b0 : FVec F S1x256 .f32
  w1 : FVec F S512x256 .bf16
  b1 : FVec F S1x256 .f32
  w2 : FVec F S512x256 .bf16
  b2 : FVec F S1x256 .f32
  wR1 : FVec F S256x256 .bf16
  bR1 : FVec F S1x256 .f32
  wR2 : FVec F S256x256 .bf16
  bR2 : FVec F S1x256 .f32

/-- The hidden rows after the embedding and two rounds. -/
def hidden2V (p : Loaded F) (x : Vec F S1x200x8 .bf16) : FVec F S200x256 .bf16 :=
  roundV p.w1 p.b1 (roundV p.w0 p.b0 (embedV p.wE p.bE x))

/-- What the body stores for a jet in the weights' window. -/
def lastWeightsV (p : Loaded F) (x : Vec F S1x200x8 .bf16) : FVec F S1x200x200 .f32 :=
  shapeCast S1x200x200 (weightsV (hidden2V p x)) shapeCasts_S200x200_S1x200x200

/-- What the body stores for a jet in the read-out's window. -/
def readoutV (p : Loaded F) (x : Vec F S1x200x8 .bf16) : FVec F S1x1x256 .f32 :=
  shapeCast S1x1x256 (pooledV p.wR2 p.bR2 (readHiddenV p.wR1 p.bR1 (roundV p.w2 p.b2 (hidden2V p x)))) shapeCasts_S1x256_S1x1x256

/-- The weights' blocks as loaded. -/
def loaded (x1 : Vec F S8x256 .bf16) (x2 : Vec F S1x256 .f32) (x3 : Vec F S512x256 .bf16) (x4 : Vec F S1x256 .f32)
    (x5 : Vec F S512x256 .bf16) (x6 : Vec F S1x256 .f32) (x7 : Vec F S512x256 .bf16) (x8 : Vec F S1x256 .f32)
    (x9 : Vec F S256x256 .bf16) (x10 : Vec F S1x256 .f32) (x11 : Vec F S256x256 .bf16) (x12 : Vec F S1x256 .f32) : Loaded F :=
  ⟨k0_pay5 (View.ld x1 r0_0), k0_pay6 (View.ld x2 r0_1), k0_pay7 (View.ld x3 r0_2), k0_pay8 (View.ld x4 r0_1),
   k0_pay9 (View.ld x5 r0_2), k0_pay10 (View.ld x6 r0_1), k0_pay11 (View.ld x7 r0_2), k0_pay12 (View.ld x8 r0_1),
   k0_pay13 (View.ld x9 r0_3), k0_pay14 (View.ld x10 r0_1), k0_pay15 (View.ld x11 r0_3), k0_pay16 (View.ld x12 r0_1)⟩

/-- The weights' window after the body: jet `j`'s slab holds that jet's last weights. -/
theorem out0_14_eq (x0 : Vec F S8x200x8 .bf16) (x1 : Vec F S8x256 .bf16) (x2 : Vec F S1x256 .f32) (x3 : Vec F S512x256 .bf16) (x4 : Vec F S1x256 .f32)
    (x5 : Vec F S512x256 .bf16) (x6 : Vec F S1x256 .f32) (x7 : Vec F S512x256 .bf16) (x8 : Vec F S1x256 .f32)
    (x9 : Vec F S256x256 .bf16) (x10 : Vec F S1x256 .f32) (x11 : Vec F S256x256 .bf16) (x12 : Vec F S1x256 .f32) :
    out0_14 x0 x1 x2 x3 x4 x5 x6 x7 x8 x9 x10 x11 x12 = View.canon
      [⟨r0_27, lastWeightsV (loaded x1 x2 x3 x4 x5 x6 x7 x8 x9 x10 x11 x12) (View.ld x0 r0_11)⟩,
       ⟨r0_25, lastWeightsV (loaded x1 x2 x3 x4 x5 x6 x7 x8 x9 x10 x11 x12) (View.ld x0 r0_10)⟩,
       ⟨r0_23, lastWeightsV (loaded x1 x2 x3 x4 x5 x6 x7 x8 x9 x10 x11 x12) (View.ld x0 r0_9)⟩,
       ⟨r0_21, lastWeightsV (loaded x1 x2 x3 x4 x5 x6 x7 x8 x9 x10 x11 x12) (View.ld x0 r0_8)⟩,
       ⟨r0_19, lastWeightsV (loaded x1 x2 x3 x4 x5 x6 x7 x8 x9 x10 x11 x12) (View.ld x0 r0_7)⟩,
       ⟨r0_17, lastWeightsV (loaded x1 x2 x3 x4 x5 x6 x7 x8 x9 x10 x11 x12) (View.ld x0 r0_6)⟩,
       ⟨r0_15, lastWeightsV (loaded x1 x2 x3 x4 x5 x6 x7 x8 x9 x10 x11 x12) (View.ld x0 r0_5)⟩,
       ⟨r0_13, lastWeightsV (loaded x1 x2 x3 x4 x5 x6 x7 x8 x9 x10 x11 x12) (View.ld x0 r0_4)⟩] := rfl

/-- The read-out's window after the body: jet `j`'s row holds that jet's read-out. -/
theorem out0_13_eq (x0 : Vec F S8x200x8 .bf16) (x1 : Vec F S8x256 .bf16) (x2 : Vec F S1x256 .f32) (x3 : Vec F S512x256 .bf16) (x4 : Vec F S1x256 .f32)
    (x5 : Vec F S512x256 .bf16) (x6 : Vec F S1x256 .f32) (x7 : Vec F S512x256 .bf16) (x8 : Vec F S1x256 .f32)
    (x9 : Vec F S256x256 .bf16) (x10 : Vec F S1x256 .f32) (x11 : Vec F S256x256 .bf16) (x12 : Vec F S1x256 .f32) :
    out0_13 x0 x1 x2 x3 x4 x5 x6 x7 x8 x9 x10 x11 x12 = View.canon
      [⟨r0_26, readoutV (loaded x1 x2 x3 x4 x5 x6 x7 x8 x9 x10 x11 x12) (View.ld x0 r0_11)⟩,
       ⟨r0_24, readoutV (loaded x1 x2 x3 x4 x5 x6 x7 x8 x9 x10 x11 x12) (View.ld x0 r0_10)⟩,
       ⟨r0_22, readoutV (loaded x1 x2 x3 x4 x5 x6 x7 x8 x9 x10 x11 x12) (View.ld x0 r0_9)⟩,
       ⟨r0_20, readoutV (loaded x1 x2 x3 x4 x5 x6 x7 x8 x9 x10 x11 x12) (View.ld x0 r0_8)⟩,
       ⟨r0_18, readoutV (loaded x1 x2 x3 x4 x5 x6 x7 x8 x9 x10 x11 x12) (View.ld x0 r0_7)⟩,
       ⟨r0_16, readoutV (loaded x1 x2 x3 x4 x5 x6 x7 x8 x9 x10 x11 x12) (View.ld x0 r0_6)⟩,
       ⟨r0_14, readoutV (loaded x1 x2 x3 x4 x5 x6 x7 x8 x9 x10 x11 x12) (View.ld x0 r0_5)⟩,
       ⟨r0_12, readoutV (loaded x1 x2 x3 x4 x5 x6 x7 x8 x9 x10 x11 x12) (View.ld x0 r0_4)⟩] := rfl

end Cert.KernelIdeal.Jet

end
-- ==== Proof.Spec.lean ====
/-
  The network both programs compute, one jet at a time, as plain functions of extended reals.

  A jet is a 200 × 8 matrix of node features. The network embeds it (a dense layer under tanh), runs three
  rounds of message passing, and reads a 256-vector out:
  * a round scores every pair of nodes by the scaled inner product of their hidden rows, turns each row of
    scores into weights (the exponential of the score less the row's greatest score, over the row's sum of
    those exponentials), forms each node's message as the weighted sum of the hidden rows, and updates the
    hidden rows by a dense layer applied to a node's own row (through the first 256 rows of the round's
    512 × 256 weight) and to its message (through the last 256 rows);
  * the read-out applies a dense layer under tanh, a second linear layer, and sums over the 200 nodes; the
    second layer's bias is added once per node, which the sum turns into 200 times the bias.
  The results are the read-out and the LAST round's weights.
-/
import Idealize.ShloMosaic.PureOps.Ideal
import Idealize.ShloMosaic.Lib.ValueIdx

noncomputable section

namespace Cert.Mpnn

open Idealize.ShloMosaic Idealize.ShloMosaic.ValueIdx

/-- An `m × n` matrix of extended reals. -/
abbrev Mat (m n : Nat) := Fin m → Fin n → EReal

/-- The scale of the scores, 1/16, as both programs spell it. -/
def scaleLit : EReal := Ideal.ofBits .f32 0x3D800000#32
/-- The value a row's greatest score is folded from: the pattern of -∞. -/
def floorLit : EReal := Ideal.ofBits .f32 0xFF800000#32
/-- The number of nodes, 200, as the kernel spells it. -/
def nodesLit : EReal := Ideal.ofBits .f32 0x43480000#32

/-- A dense layer under tanh: entry `(i, j)` is `tanh (∑ c, x i c · w c j + b j)`. -/
def dense {m k n : Nat} (x : Mat m k) (w : Mat k n) (b : Fin n → EReal) : Mat m n :=
  fun i j => Ideal.tanh (∑ c, x i c * w c j + b j)

/-- The scaled inner products of the rows of `h`. -/
def score {m d : Nat} (h : Mat m d) : Mat m m := fun i j => (∑ c, h i c * h j c) * scaleLit

/-- The greatest entry of row `i`, folded from `floorLit`. -/
def rowMax {m n : Nat} (l : Mat m n) (i : Fin m) : EReal := (Finset.univ : Finset (Fin n)).fold max floorLit (l i)

/-- The weights of a matrix of scores: along each row, the exponentials of the entries less the row's
    greatest, over their sum. -/
def weights {m n : Nat} (l : Mat m n) : Mat m n :=
  fun i j => Ideal.div (Ideal.exp (l i j - rowMax l i)) (∑ j', Ideal.exp (l i j' - rowMax l i))

/-- Each node's message: the weighted sum of the hidden rows. -/
def message {m d : Nat} (a : Mat m m) (h : Mat m d) : Mat m d := fun i c => ∑ j, a i j * h j c

/-- The first 256 rows of a 512-row weight. -/
def topRows (w : Mat 512 256) : Mat 256 256 := fun c j => w ⟨c.val, by omega⟩ j
/-- The last 256 rows of a 512-row weight. -/
def botRows (w : Mat 512 256) : Mat 256 256 := fun c j => w ⟨256 + c.val, by omega⟩ j

/-- The update of the hidden rows from a node's own row and its message. -/
def update {m : Nat} (w : Mat 512 256) (b : Fin 256 → EReal) (h msg : Mat m 256) : Mat m 256 :=
  fun i j => Ideal.tanh ((∑ c, h i c * topRows w c j) + (∑ c, msg i c * botRows w c j) + b j)

/-- One round of message passing. -/
def mpRound {m : Nat} (w : Mat 512 256) (b : Fin 256 → EReal) (h : Mat m 256) : Mat m 256 :=
  update w b h (message (weights (score h)) h)

/-- The read-out's second layer summed over the nodes, the bias counted once per node. -/
def pooled {m d n : Nat} (w : Mat d n) (b : Fin n → EReal) (r : Mat m d) : Fin n → EReal :=
  fun j => (∑ i, ∑ c, r i c * w c j) + nodesLit * b j

/-- The network's weights. -/
structure Params where
  wE : Mat 8 256
  bE : Fin 256 → EReal
  w0 : Mat 512 256
  b0 : Fin 256 → EReal
  w1 : Mat 512 256
  b1 : Fin 256 → EReal
  w2 : Mat 512 256
  b2 : Fin 256 → EReal
  wR1 : Mat 256 256
  bR1 : Fin 256 → EReal
  wR2 : Mat 256 256
  bR2 : Fin 256 → EReal

/-- The hidden rows after the embedding and two rounds: what the last round starts from. -/
def hidden2 (p : Params) (x : Mat 200 8) : Mat 200 256 := mpRound p.w1 p.b1 (mpRound p.w0 p.b0 (dense x p.wE p.bE))

/-- The last round's weights: the network's second result. -/
def lastWeights (p : Params) (x : Mat 200 8) : Mat 200 200 := weights (score (hidden2 p x))

/-- The read-out: the network's first result. -/
def readout (p : Params) (x : Mat 200 8) : Fin 256 → EReal :=
  pooled p.wR2 p.bR2 (dense (mpRound p.w2 p.b2 (hidden2 p x)) p.wR1 p.bR1)

/-! ## The arrays -/

/-- A rank-2 array as a matrix. -/
def matOf {m n : Nat} (w : (⟨2, ![m, n]⟩ : Shape).Idx → EReal) : Mat m n := fun i j => w (ix2 i j)
/-- A rank-1 array as a vector. -/
def vecOf {n : Nat} (v : (⟨1, ![n]⟩ : Shape).Idx → EReal) : Fin n → EReal := fun i => v (ix1 i)
/-- The one row of a one-row array as a vector. -/
def rowOf {n : Nat} (v : (⟨2, ![1, n]⟩ : Shape).Idx → EReal) : Fin n → EReal := fun i => v (ix2 (0 : Fin 1) i)
/-- Member `b` of a stack of matrices. -/
def slab {B m n : Nat} (h : (⟨3, ![B, m, n]⟩ : Shape).Idx → EReal) (b : Fin B) : Mat m n := fun i j => h (ix3 b i j)
/-- Jet `b` of the batch. -/
def jetOf (jets : (⟨3, ![128, 200, 8]⟩ : Shape).Idx → EReal) (b : Fin 128) : Mat 200 8 := slab jets b

/-- The weights, from the programs' twelve weight arrays. -/
def paramsOf (wE : (⟨2, ![8, 256]⟩ : Shape).Idx → EReal) (bE : (⟨1, ![256]⟩ : Shape).Idx → EReal)
    (w0 : (⟨2, ![512, 256]⟩ : Shape).Idx → EReal) (b0 : (⟨1, ![256]⟩ : Shape).Idx → EReal)
    (w1 : (⟨2, ![512, 256]⟩ : Shape).Idx → EReal) (b1 : (⟨1, ![256]⟩ : Shape).Idx → EReal)
    (w2 : (⟨2, ![512, 256]⟩ : Shape).Idx → EReal) (b2 : (⟨1, ![256]⟩ : Shape).Idx → EReal)
    (wR1 : (⟨2, ![256, 256]⟩ : Shape).Idx → EReal) (bR1 : (⟨1, ![256]⟩ : Shape).Idx → EReal)
    (wR2 : (⟨2, ![256, 256]⟩ : Shape).Idx → EReal) (bR2 : (⟨1, ![256]⟩ : Shape).Idx → EReal) : Params :=
  ⟨matOf wE, vecOf bE, matOf w0, vecOf b0, matOf w1, vecOf b1, matOf w2, vecOf b2, matOf wR1, vecOf bR1, matOf wR2, vecOf bR2⟩

/-- The second result as an array: entry `(b, n, m)` is jet `b`'s last weights at `(n, m)`. -/
def weightsArr (p : Params) (jets : (⟨3, ![128, 200, 8]⟩ : Shape).Idx → EReal) : (⟨3, ![128, 200, 200]⟩ : Shape).Idx → EReal :=
  fun i => lastWeights p (jetOf jets (i 0)) (i 1) (i 2)

/-- The first result as an array: entry `(b, k)` is jet `b`'s read-out at `k`. -/
def readoutArr (p : Params) (jets : (⟨3, ![128, 200, 8]⟩ : Shape).Idx → EReal) : (⟨2, ![128, 256]⟩ : Shape).Idx → EReal :=
  fun i => readout p (jetOf jets (i 0)) (i 1)

theorem weightsArr_ix3 (p : Params) (jets : (⟨3, ![128, 200, 8]⟩ : Shape).Idx → EReal) (b : Fin 128) (n m : Fin 200) :
    weightsArr p jets (ix3 b n m) = lastWeights p (jetOf jets b) n m := rfl

theorem readoutArr_ix2 (p : Params) (jets : (⟨3, ![128, 200, 8]⟩ : Shape).Idx → EReal) (b : Fin 128) (k : Fin 256) :
    readoutArr p jets (ix2 b k) = readout p (jetOf jets b) k := rfl

end Cert.Mpnn

end
-- ==== Proof.JetAttn.lean ====
/-
  One jet's embedding, scores and weights, entry by entry (the kernel's side).
-/
import proofs.«170520_g85813446574462_cont_9to1c4b_288_15_alg».proof.Proof.JetOps
import proofs.«170520_g85813446574462_cont_9to1c4b_288_15_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section
namespace Cert.KernelIdeal.Jet

open Idealize.ShloMosaic Idealize.ShloMosaic.ValueIdx Cert.KernelIdeal Cert.KernelIdeal.Gen Cert.Mpnn

/-! ## The embedding's product: which entries of its operands it reads -/

/-- The features are read in the result's row … -/
theorem lhs_embed_0 (j : S200x256.Idx) (k : dot_S200x8_S8x256_S200x256_1_0_0_1_n_n.contr.Idx) :
    (dot_S200x8_S8x256_S200x256_1_0_0_1_n_n.lhsIdx j k 0).val = (j 0).val := rfl
/-- … at the contraction's position; -/
theorem lhs_embed_1 (j : S200x256.Idx) (k : dot_S200x8_S8x256_S200x256_1_0_0_1_n_n.contr.Idx) :
    (dot_S200x8_S8x256_S200x256_1_0_0_1_n_n.lhsIdx j k 1).val = (k ⟨0, by decide⟩).val := rfl
/-- the weight is read in the contraction's row … -/
theorem rhs_embed_0 (j : S200x256.Idx) (k : dot_S200x8_S8x256_S200x256_1_0_0_1_n_n.contr.Idx) :
    (dot_S200x8_S8x256_S200x256_1_0_0_1_n_n.rhsIdx j k 0).val = (k ⟨0, by decide⟩).val := rfl
/-- … at the result's column. -/
theorem rhs_embed_1 (j : S200x256.Idx) (k : dot_S200x8_S8x256_S200x256_1_0_0_1_n_n.contr.Idx) :
    (dot_S200x8_S8x256_S200x256_1_0_0_1_n_n.rhsIdx j k 1).val = (j 1).val := rfl

/-- At entry (n, k) and contraction position c the features are read at (n, c). -/
theorem lhsIdx_embed (n : Fin 200) (k : Fin 256) (c : Fin 8) :
    dot_S200x8_S8x256_S200x256_1_0_0_1_n_n.lhsIdx (ix2 n k)
      ((contrEquiv1 dot_S200x8_S8x256_S200x256_1_0_0_1_n_n 8 rfl rfl).symm c) = ix2 n c := by
  funext a
  match a with
  | ⟨0, _⟩ => exact Fin.ext (lhs_embed_0 _ _)
  | ⟨1, _⟩ => exact Fin.ext ((lhs_embed_1 _ _).trans (contrEquiv1_symm_val dot_S200x8_S8x256_S200x256_1_0_0_1_n_n 8 rfl rfl c))

/-- At entry (n, k) and contraction position c the weight is read at (c, k). -/
theorem rhsIdx_embed (n : Fin 200) (k : Fin 256) (c : Fin 8) :
    dot_S200x8_S8x256_S200x256_1_0_0_1_n_n.rhsIdx (ix2 n k)
      ((contrEquiv1 dot_S200x8_S8x256_S200x256_1_0_0_1_n_n 8 rfl rfl).symm c) = ix2 c k := by
  funext a
  match a with
  | ⟨0, _⟩ => exact Fin.ext ((rhs_embed_0 _ _).trans (contrEquiv1_symm_val dot_S200x8_S8x256_S200x256_1_0_0_1_n_n 8 rfl rfl c))
  | ⟨1, _⟩ => exact Fin.ext (rhs_embed_1 _ _)

/-- The features' product with the weight at entry (n, k): row n of the jet's one slab against column k. -/
theorem embedMM_apply (wE : FVec Ideal S8x256 .bf16) (x : FVec Ideal S1x200x8 .bf16) (n : Fin 200) (k : Fin 256) :
    matmul dot_S200x8_S8x256_S200x256_1_0_0_1_n_n none (shapeCast S200x8 x shapeCasts_S1x200x8_S200x8) wE
        (constant (F := Ideal) S200x256 .f32 0x00000000#32) (ix2 n k)
      = ∑ c : Fin 8, x (ix3 (0 : Fin 1) n c) * wE (ix2 c k) := by
  refine (Ideal.matmul_constant_zero_apply dot_S200x8_S8x256_S200x256_1_0_0_1_n_n none _ wE (ix2 n k)).trans ?_
  refine (Equiv.sum_comp (contrEquiv1 dot_S200x8_S8x256_S200x256_1_0_0_1_n_n 8 rfl rfl).symm _).symm.trans ?_
  refine Finset.sum_congr rfl fun c _ => ?_
  rw [lhsIdx_embed, rhsIdx_embed]
  exact congrArg (· * wE (ix2 c k)) (shapeCast_1ab_ab_apply x shapeCasts_S1x200x8_S200x8 n c)

/-- The embedding at an entry: tanh of the features' row times the weight's column, plus the bias. -/
theorem embedV_apply (wE : FVec Ideal S8x256 .bf16) (bE : FVec Ideal S1x256 .f32) (x : Vec Ideal S1x200x8 .bf16) (n : Fin 200) (k : Fin 256) :
    embedV wE bE x (ix2 n k) = dense (slab x (0 : Fin 1)) (matOf wE) (rowOf bE) n k := by
  unfold embedV
  show Ideal.tanh (_ + _) = _
  exact congrArg Ideal.tanh (congrArg₂ (· + ·) (embedMM_apply wE x n k)
    (broadcastTo_1b_ab_apply bE broadcasts_S1x256_S200x256 n k))

/-! ## The scores' product: which entries of its operands it reads -/

/-- The left operand is read in the result's row … -/
theorem lhs_score_0 (j : S200x200.Idx) (k : dot_S200x256_S200x256_S200x200_1_1_0_0_n_n.contr.Idx) :
    (dot_S200x256_S200x256_S200x200_1_1_0_0_n_n.lhsIdx j k 0).val = (j 0).val := rfl
/-- … at the contraction's position; -/
theorem lhs_score_1 (j : S200x200.Idx) (k : dot_S200x256_S200x256_S200x200_1_1_0_0_n_n.contr.Idx) :
    (dot_S200x256_S200x256_S200x200_1_1_0_0_n_n.lhsIdx j k 1).val = (k ⟨0, by decide⟩).val := rfl
/-- the right operand is read in the row named by the result's column … -/
theorem rhs_score_0 (j : S200x200.Idx) (k : dot_S200x256_S200x256_S200x200_1_1_0_0_n_n.contr.Idx) :
    (dot_S200x256_S200x256_S200x200_1_1_0_0_n_n.rhsIdx j k 0).val = (j 1).val := rfl
/-- … at the contraction's position too. -/
theorem rhs_score_1 (j : S200x200.Idx) (k : dot_S200x256_S200x256_S200x200_1_1_0_0_n_n.contr.Idx) :
    (dot_S200x256_S200x256_S200x200_1_1_0_0_n_n.rhsIdx j k 1).val = (k ⟨0, by decide⟩).val := rfl

/-- At entry (n, m) and contraction position c the left operand is read at (n, c). -/
theorem lhsIdx_score (n m : Fin 200) (c : Fin 256) :
    dot_S200x256_S200x256_S200x200_1_1_0_0_n_n.lhsIdx (ix2 n m)
      ((contrEquiv1 dot_S200x256_S200x256_S200x200_1_1_0_0_n_n 256 rfl rfl).symm c) = ix2 n c := by
  funext a
  match a with
  | ⟨0, _⟩ => exact Fin.ext (lhs_score_0 _ _)
  | ⟨1, _⟩ => exact Fin.ext ((lhs_score_1 _ _).trans (contrEquiv1_symm_val dot_S200x256_S200x256_S200x200_1_1_0_0_n_n 256 rfl rfl c))

/-- At entry (n, m) and contraction position c the right operand is read at (m, c). -/
theorem rhsIdx_score (n m : Fin 200) (c : Fin 256) :
    dot_S200x256_S200x256_S200x200_1_1_0_0_n_n.rhsIdx (ix2 n m)
      ((contrEquiv1 dot_S200x256_S200x256_S200x200_1_1_0_0_n_n 256 rfl rfl).symm c) = ix2 m c := by
  funext a
  match a with
  | ⟨0, _⟩ => exact Fin.ext (rhs_score_0 _ _)
  | ⟨1, _⟩ => exact Fin.ext ((rhs_score_1 _ _).trans (contrEquiv1_symm_val dot_S200x256_S200x256_S200x200_1_1_0_0_n_n 256 rfl rfl c))

/-- The product of the hidden rows with themselves at entry (n, m): the inner product of rows n and m. -/
theorem scoreMM_apply (h : FVec Ideal S200x256 .bf16) (n m : Fin 200) :
    matmul dot_S200x256_S200x256_S200x200_1_1_0_0_n_n none h h (constant (F := Ideal) S200x200 .f32 0x00000000#32) (ix2 n m)
      = ∑ c : Fin 256, h (ix2 n c) * h (ix2 m c) := by
  refine (Ideal.matmul_constant_zero_apply dot_S200x256_S200x256_S200x200_1_1_0_0_n_n none h h (ix2 n m)).trans ?_
  refine (Equiv.sum_comp (contrEquiv1 dot_S200x256_S200x256_S200x200_1_1_0_0_n_n 256 rfl rfl).symm _).symm.trans ?_
  refine Finset.sum_congr rfl fun c _ => ?_
  rw [lhsIdx_score, rhsIdx_score]

/-- The scores at an entry. -/
theorem scoreV_apply (h : FVec Ideal S200x256 .bf16) (n m : Fin 200) : scoreV h (ix2 n m) = score (matOf h) n m := by
  unfold scoreV
  refine (mulf_apply _ _ _).trans ?_
  rw [scoreMM_apply]
  rfl

/-! ## A vector as a column, a column across a row -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's reductions -/

/-- The entry a row's reduction reads at position m of row n. -/
theorem lift_row (n m : Fin 200) : reduces_S200x200_S200.lift (ix1 n) m = ix2 n m := by
  funext a
  match a with
  | ⟨0, _⟩ => exact Fin.ext rfl
  | ⟨1, _⟩ => exact Fin.ext rfl

/-- A row's greatest entry, folded from the floor. -/
theorem rowMaxV_apply (l : FVec Ideal S200x200 .f32) (n : Fin 200) :
    multiReduction (F := Ideal) .maximumf [1] S200 l 0xFF800000#32 reduces_S200x200_S200 (.inl rfl) rfl (ix1 n)
      = rowMax (matOf l) n := by
  refine (Ideal.multiReduction_maximumf_single l _ reduces_S200x200_S200 (.inl rfl) rfl (ix1 n)).trans ?_
  have hf : (l ∘ reduces_S200x200_S200.lift (ix1 n)) = fun m : Fin 200 => l (ix2 n m) :=
    funext fun m => congrArg l (lift_row n m)
  rw [hf]
  rfl

/-- A row's sum. -/
theorem rowSumV_apply (e : FVec Ideal S200x200 .f32) (n : Fin 200) :
    multiReduction (F := Ideal) .add [1] S200 e 0x00000000#32 reduces_S200x200_S200 (.inl rfl) rfl (ix1 n)
      = ∑ m : Fin 200, e (ix2 n m) := by
  refine (Ideal.multiReduction_add_single e _ reduces_S200x200_S200 (.inl rfl) rfl (ix1 n)).trans ?_
  exact Finset.sum_congr rfl fun m _ => congrArg e (lift_row n m)

/-! ## The exponentials and the normalisation at an entry -/

/-- The exponential of an entry less its row's greatest. -/
theorem expV_apply (l : FVec Ideal S200x200 .f32) (n m : Fin 200) :
    expV l (ix2 n m) = Ideal.exp (l (ix2 n m) - rowMax (matOf l) n) := by
  unfold expV
  exact congrArg (fun r => Ideal.exp (l (ix2 n m) - r))
    (((broadcastTo_a1_ab_apply _ broadcasts_S200x1_S200x200 n m).trans
      (shapeCast_a_a1_apply _ shapeCasts_S200_S200x1 n 0)).trans (rowMaxV_apply l n))

/-- An entry over its row's sum. -/
theorem normV_apply (e : FVec Ideal S200x200 .f32) (n m : Fin 200) :
    normV e (ix2 n m) = Ideal.div (e (ix2 n m)) (∑ m' : Fin 200, e (ix2 n m')) := by
  unfold normV
  exact congrArg (fun r => Ideal.div (e (ix2 n m)) r)
    (((broadcastTo_a1_ab_apply _ broadcasts_S200x1_S200x200 n m).trans
      (shapeCast_a_a1_apply _ shapeCasts_S200_S200x1 n 0)).trans (rowSumV_apply e n))

/-- The kernel's scores, read as a matrix, are the scores of the hidden rows read as a matrix. -/
theorem matOf_scoreV (h : FVec Ideal S200x256 .bf16) : matOf (scoreV h) = score (matOf h) :=
  funext fun i => funext fun j => scoreV_apply h i j

/-- The rows' weights at an entry. -/
theorem weightsV_apply (h : FVec Ideal S200x256 .bf16) (n m : Fin 200) : weightsV h (ix2 n m) = weights (score (matOf h)) n m := by
  unfold weightsV
  refine (normV_apply _ n m).trans ?_
  have hE : ∀ m' : Fin 200, expV (scoreV h) (ix2 n m')
      = Ideal.exp (score (matOf h) n m' - rowMax (score (matOf h)) n) := fun m' => by
    rw [expV_apply, matOf_scoreV, scoreV_apply]
  simp only [hE]
  rfl

end Cert.KernelIdeal.Jet

end
-- ==== Proof.JetDense.lean ====
/-
  One jet's update, read-out layer and pooled read-out, entry by entry (the kernel's side).
-/
import proofs.«170520_g85813446574462_cont_9to1c4b_288_15_alg».proof.Proof.JetOps
import proofs.«170520_g85813446574462_cont_9to1c4b_288_15_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section
namespace Cert.KernelIdeal.Jet

open Idealize.ShloMosaic Idealize.ShloMosaic.ValueIdx Cert.KernelIdeal Cert.KernelIdeal.Gen Cert.Mpnn

/-- A plain product of an m × K by a K × n matrix into a zero accumulator, at an entry: the sum over the
    contracted coordinate of the products of the entries. -/
theorem matmul_plain_zero_apply {m K n : Nat} {φ₁ φ₂ : FTy}
    (w : DotDims.WF ⟨2, ![m, K]⟩ ⟨2, ![K, n]⟩ ⟨2, ![m, n]⟩ [1] [0] [0] [1] [] [])
    (prec : Option ContractPrecision) (A : FVec Ideal ⟨2, ![m, K]⟩ φ₁) (B : FVec Ideal ⟨2, ![K, n]⟩ φ₂)
    (a : Fin m) (b : Fin n) :
    matmul (⟨[1], [0], [0], [1], [], [], w⟩ : DotDims ⟨2, ![m, K]⟩ ⟨2, ![K, n]⟩ ⟨2, ![m, n]⟩) prec A B
        (constant (F := Ideal) ⟨2, ![m, n]⟩ .f32 0x00000000#32) (ix2 a b)
      = ∑ c : Fin K, A (ix2 a c) * B (ix2 c b) := by
  refine (Ideal.matmul_constant_zero_apply _ prec A B (ix2 a b)).trans ?_
  rw [← Equiv.sum_comp (contrEquiv1 (⟨[1], [0], [0], [1], [], [], w⟩ : DotDims ⟨2, ![m, K]⟩ ⟨2, ![K, n]⟩ ⟨2, ![m, n]⟩) K rfl rfl).symm]
  refine Finset.sum_congr rfl fun c _ => ?_
  have c2 := contrEquiv1_symm_val (⟨[1], [0], [0], [1], [], [], w⟩ : DotDims ⟨2, ![m, K]⟩ ⟨2, ![K, n]⟩ ⟨2, ![m, n]⟩) K rfl rfl c
  have l2 : (⟨[1], [0], [0], [1], [], [], w⟩ : DotDims ⟨2, ![m, K]⟩ ⟨2, ![K, n]⟩ ⟨2, ![m, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, K]⟩ ⟨2, ![K, n]⟩ ⟨2, ![m, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem matmul_256_apply (x : FVec Ideal S200x256 .bf16) (w : FVec Ideal S256x256 .bf16) (n : Fin 200) (k : Fin 256) :
    matmul dot_S200x256_S256x256_S200x256_1_0_0_1_n_n none x w (constant (F := Ideal) S200x256 .f32 0x00000000#32) (ix2 n k)
      = ∑ c : Fin 256, x (ix2 n c) * w (ix2 c k) :=
  matmul_plain_zero_apply Facts₀.dot_S200x256_S256x256_S200x256_1_0_0_1_n_n_wf none x w n k

theorem matmul_200_apply (a : FVec Ideal S200x200 .bf16) (h : FVec Ideal S200x256 .bf16) (n : Fin 200) (k : Fin 256) :
    matmul dot_S200x200_S200x256_S200x256_1_0_0_1_n_n none a h (constant (F := Ideal) S200x256 .f32 0x00000000#32) (ix2 n k)
      = ∑ c : Fin 200, a (ix2 n c) * h (ix2 c k) :=
  matmul_plain_zero_apply Facts₀.dot_S200x200_S200x256_S200x256_1_0_0_1_n_n_wf none a h n k

/-- The first 256 rows of the round's weight at an entry. -/
theorem sliceTop_apply (w : FVec Ideal S512x256 .bf16) (h : S512x256.Slices ![0, 0] S256x256) (c k : Fin 256) :
    extractStridedSlice S256x256 ![0, 0] w h (ix2 c k) = topRows (matOf w) c k :=
  slice2_axis0_apply 0 w h c k ⟨c.val, by have := c.isLt; omega⟩ (Nat.zero_add _).symm

/-- The last 256 rows of the round's weight at an entry. -/
theorem sliceBot_apply (w : FVec Ideal S512x256 .bf16) (h : S512x256.Slices ![256, 0] S256x256) (c k : Fin 256) :
    extractStridedSlice S256x256 ![256, 0] w h (ix2 c k) = botRows (matOf w) c k :=
  slice2_axis0_apply 256 w h c k ⟨256 + c.val, by have := c.isLt; omega⟩ rfl

/-- The messages at an entry: the weights' row times the hidden rows' column. -/
theorem messageV_apply (a : FVec Ideal S200x200 .f32) (h : FVec Ideal S200x256 .bf16) (n : Fin 200) (c : Fin 256) :
    matmul dot_S200x200_S200x256_S200x256_1_0_0_1_n_n none (truncf .bf16 a bitsLt_bf16_f32) h
        (constant (F := Ideal) S200x256 .f32 0x00000000#32) (ix2 n c)
      = message (matOf a) (matOf h) n c :=
  (matmul_200_apply (truncf .bf16 a bitsLt_bf16_f32) h n c).trans rfl

/-- The update at an entry. -/
theorem updateV_apply (w : FVec Ideal S512x256 .bf16) (b : FVec Ideal S1x256 .f32) (h : FVec Ideal S200x256 .bf16) (a : FVec Ideal S200x200 .f32)
    (n : Fin 200) (k : Fin 256) :
    updateV w b h a (ix2 n k) = update (matOf w) (rowOf b) (matOf h) (message (matOf a) (matOf h)) n k := by
  unfold updateV update
  show Ideal.tanh (matmul dot_S200x256_S256x256_S200x256_1_0_0_1_n_n none h
        (extractStridedSlice S256x256 ![0, 0] w _) (constant (F := Ideal) S200x256 .f32 0x00000000#32) (ix2 n k)
      + matmul dot_S200x256_S256x256_S200x256_1_0_0_1_n_n none
        (truncf .bf16 (matmul dot_S200x200_S200x256_S200x256_1_0_0_1_n_n none (truncf .bf16 a bitsLt_bf16_f32) h
          (constant (F := Ideal) S200x256 .f32 0x00000000#32)) bitsLt_bf16_f32)
        (extractStridedSlice S256x256 ![256, 0] w _) (constant (F := Ideal) S200x256 .f32 0x00000000#32) (ix2 n k)
      + broadcastTo S200x256 b _ (ix2 n k)) = _
  rw [matmul_256_apply, matmul_256_apply, broadcastTo_1b_ab_apply]
  refine congrArg Ideal.tanh (congrArg₂ (· + ·) (congrArg₂ (· + ·)
    (Finset.sum_congr rfl fun c _ => ?_) (Finset.sum_congr rfl fun c _ => ?_)) rfl)
  · exact congrArg (h (ix2 n c) * ·) (sliceTop_apply w _ c k)
  · exact congrArg₂ (· * ·) (messageV_apply a h n c) (sliceBot_apply w _ c k)

/-- The read-out's first layer at an entry. -/
theorem readHiddenV_apply (w : FVec Ideal S256x256 .bf16) (b : FVec Ideal S1x256 .f32) (h : FVec Ideal S200x256 .bf16) (n : Fin 200) (k : Fin 256) :
    readHiddenV w b h (ix2 n k) = dense (matOf h) (matOf w) (rowOf b) n k := by
  unfold readHiddenV dense
  show Ideal.tanh (matmul dot_S200x256_S256x256_S200x256_1_0_0_1_n_n none h w (constant (F := Ideal) S200x256 .f32 0x00000000#32) (ix2 n k)
      + broadcastTo S200x256 b _ (ix2 n k)) = _
  rw [matmul_256_apply, broadcastTo_1b_ab_apply]
  rfl

/-- The node coordinate put back in front of a column's index. -/
theorem lift_col (h : S200x256.Reduces [0] S256) (k : Fin 256) (i : Fin 200) : h.lift (ix1 k) i = ix2 i k := by
  funext ax; apply Fin.ext
  match ax with
  | ⟨0, _⟩ => rfl
  | ⟨1, _⟩ => rfl

/-- The pooled read-out at an entry. -/
theorem pooledV_apply (w : FVec Ideal S256x256 .bf16) (b : FVec Ideal S1x256 .f32) (r : FVec Ideal S200x256 .bf16) (k : Fin 256) :
    pooledV w b r (ix2 (0 : Fin 1) k) = pooled (matOf w) (rowOf b) (matOf r) k := by
  unfold pooledV pooled
  show shapeCast S1x256 (multiReduction (F := Ideal) .add [0] S256
        (matmul dot_S200x256_S256x256_S200x256_1_0_0_1_n_n none r w (constant (F := Ideal) S200x256 .f32 0x00000000#32))
        0x00000000#32 reduces_S200x256_S256 (.inl rfl) rfl) _ (ix2 (0 : Fin 1) k)
      + Ideal.ofBits .f32 0x43480000#32 * b (ix2 (0 : Fin 1) k) = _
  rw [shapeCast_a_1a_apply]
  refine congrArg₂ (· + ·) ?_ rfl
  refine (Ideal.multiReduction_add_single _ _ reduces_S200x256_S256 _ _ (ix1 k)).trans ?_
  show ∑ i : Fin 200, _ = _
  refine Finset.sum_congr rfl fun i _ => ?_
  rw [lift_col]
  exact matmul_256_apply r w i k

end Cert.KernelIdeal.Jet

end
-- ==== Proof.JetValue.lean ====
/-
  One jet's stores, entry by entry, are the network's results for that jet (the kernel's side): the steps of
  JetAttn and JetDense composed along the chain.
-/
import proofs.«170520_g85813446574462_cont_9to1c4b_288_15_alg».proof.Proof.JetAttn
import proofs.«170520_g85813446574462_cont_9to1c4b_288_15_alg».proof.Proof.JetDense

set_option maxRecDepth 16384

noncomputable section
namespace Cert.KernelIdeal.Jet

open Idealize.ShloMosaic Idealize.ShloMosaic.ValueIdx Cert.KernelIdeal Cert.KernelIdeal.Gen Cert.Mpnn

/-- The loaded weights as the network's parameters. -/
def paramsOfLoaded (p : Loaded Ideal) : Params :=
  ⟨matOf p.wE, rowOf p.bE, matOf p.w0, rowOf p.b0, matOf p.w1, rowOf p.b1, matOf p.w2, rowOf p.b2,
   matOf p.wR1, rowOf p.bR1, matOf p.wR2, rowOf p.bR2⟩

/-- One round, as a matrix. -/
theorem roundV_eq (w : FVec Ideal S512x256 .bf16) (b : FVec Ideal S1x256 .f32) (h : FVec Ideal S200x256 .bf16) :
    matOf (roundV w b h) = mpRound (matOf w) (rowOf b) (matOf h) := by
  funext n k
  show roundV w b h (ix2 n k) = _
  unfold roundV mpRound
  rw [updateV_apply]
  exact congrArg (fun a => update (matOf w) (rowOf b) (matOf h) (message a (matOf h)) n k)
    (funext fun i => funext fun j => weightsV_apply h i j)

/-- The hidden rows after the embedding and two rounds, as a matrix. -/
theorem hidden2V_eq (p : Loaded Ideal) (x : Vec Ideal S1x200x8 .bf16) :
    matOf (hidden2V p x) = hidden2 (paramsOfLoaded p) (slab x (0 : Fin 1)) := by
  unfold hidden2V hidden2
  rw [roundV_eq, roundV_eq]
  exact congrArg (fun h0 => mpRound (matOf p.w1) (rowOf p.b1) (mpRound (matOf p.w0) (rowOf p.b0) h0))
    (funext fun n => funext fun k => embedV_apply p.wE p.bE x n k)

/-- What the body stores in the weights' window for a jet, at an entry. -/
theorem lastWeightsV_apply (p : Loaded Ideal) (x : Vec Ideal S1x200x8 .bf16) (u : Fin 1) (n m : Fin 200) :
    lastWeightsV p x (ix3 u n m) = lastWeights (paramsOfLoaded p) (slab x (0 : Fin 1)) n m := by
  unfold lastWeightsV lastWeights
  rw [shapeCast_ab_1ab_apply, weightsV_apply, hidden2V_eq]

/-- What the body stores in the read-out's window for a jet, at an entry. -/
theorem readoutV_apply (p : Loaded Ideal) (x : Vec Ideal S1x200x8 .bf16) (u v : Fin 1) (k : Fin 256) :
    readoutV p x (ix3 u v k) = readout (paramsOfLoaded p) (slab x (0 : Fin 1)) k := by
  unfold readoutV readout
  have hv : v = 0 := Fin.ext (by omega)
  subst hv
  rw [shapeCast_ab_1ab_apply, pooledV_apply]
  have e1 : matOf (readHiddenV p.wR1 p.bR1 (roundV p.w2 p.b2 (hidden2V p x)))
      = dense (matOf (roundV p.w2 p.b2 (hidden2V p x))) (matOf p.wR1) (rowOf p.bR1) :=
    funext fun n => funext fun k => readHiddenV_apply p.wR1 p.bR1 _ n k
  rw [e1, roundV_eq, hidden2V_eq]
  rfl

end Cert.KernelIdeal.Jet

end
-- ==== Proof.KernelArray.lean ====
/-
  The kernel's two result arrays after its run, as functions of the program's arguments.

  The grid has 16 points; point `t` stages jets `8 t … 8 t + 7` of the batch and every weight whole, and the
  body writes jet `j`'s read-out to row `j` of the point's [8, 1, 256] block and its last weights to slab `j` of the
  point's [8, 200, 200] block. The blocks of the 16 points tile the two arrays, so entry `(b, ·)` of each array is what
  point `b / 8` wrote for its jet `b % 8`: jet `b`'s own result. The host lines before the call only change
  the format of the arguments and lay the biases out as rows; the line after it drops the read-out array's unit axis.
-/
import proofs.«170520_g85813446574462_cont_9to1c4b_288_15_alg».proof.Proof.JetValue
import Idealize.ShloMosaic.Lib.Pipeline.Value
import Idealize.ShloMosaic.Lib.StableHlo.Run

set_option maxRecDepth 16384

noncomputable section

namespace Cert.KernelIdeal.Arr

open Cert.KernelIdeal Cert.KernelIdeal.Gen Idealize.ShloMosaic Idealize.ShloMosaic.TcCoe Idealize.SL.Sem Idealize.ShloMosaic.ValueIdx Cert.Mpnn Cert.KernelIdeal.Jet
open Idealize.ShloMosaic.Pipeline (Dat)

variable (m : (ℓ : Loc nD τ sig) → Buf (Elt Ideal) ℓ) (ρ : Dev nD → PrngReg)

/-! ## The arguments -/

/-- The batch of jets: the program's first argument. -/
def jetsArr (c : Dev nD) : (⟨3, ![128, 200, 8]⟩ : Shape).Idx → EReal := m ((c : Thread nD τ).loc main_arg0)

/-- The network's weights: the program's other twelve arguments. -/
def netParams (c : Dev nD) : Params :=
  paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-! ## The index maps, decided over the grid -/

theorem hz2 : (![0, 0] : Fin 2 → Nat) = fun _ => 0 := funext fun a => by fin_cases a <;> rfl

/-- The jets' window and the two result windows move along the batch with the point; nothing else moves. -/
theorem idx_facts : ∀ t : Fin cfg0.N,
    win0_0.index t (0 : Fin 3) = t.val ∧ win0_0.index t (1 : Fin 3) = 0 ∧ win0_0.index t (2 : Fin 3) = 0
    ∧ win0_13.index t (0 : Fin 3) = t.val ∧ win0_13.index t (1 : Fin 3) = 0 ∧ win0_13.index t (2 : Fin 3) = 0
    ∧ win0_14.index t (0 : Fin 3) = t.val ∧ win0_14.index t (1 : Fin 3) = 0 ∧ win0_14.index t (2 : Fin 3) = 0 :=
  (by decide +kernel : ∀ t : Fin grid0.N, _)

theorem idx_facts_1 : ∀ t : Fin cfg0.N, win0_1.index t (0 : Fin 2) = 0 ∧ win0_1.index t (1 : Fin 2) = 0 :=
  (by decide +kernel : ∀ t : Fin grid0.N, _)
theorem idx_facts_2 : ∀ t : Fin cfg0.N, win0_2.index t (0 : Fin 2) = 0 ∧ win0_2.index t (1 : Fin 2) = 0 :=
  (by decide +kernel : ∀ t : Fin grid0.N, _)
theorem idx_facts_3 : ∀ t : Fin cfg0.N, win0_3.index t (0 : Fin 2) = 0 ∧ win0_3.index t (1 : Fin 2) = 0 :=
  (by decide +kernel : ∀ t : Fin grid0.N, _)
theorem idx_facts_4 : ∀ t : Fin cfg0.N, win0_4.index t (0 : Fin 2) = 0 ∧ win0_4.index t (1 : Fin 2) = 0 :=
  (by decide +kernel : ∀ t : Fin grid0.N, _)
theorem idx_facts_5 : ∀ t : Fin cfg0.N, win0_5.index t (0 : Fin 2) = 0 ∧ win0_5.index t (1 : Fin 2) = 0 :=
  (by decide +kernel : ∀ t : Fin grid0.N, _)
theorem idx_facts_6 : ∀ t : Fin cfg0.N, win0_6.index t (0 : Fin 2) = 0 ∧ win0_6.index t (1 : Fin 2) = 0 :=
  (by decide +kernel : ∀ t : Fin grid0.N, _)
theorem idx_facts_7 : ∀ t : Fin cfg0.N, win0_7.index t (0 : Fin 2) = 0 ∧ win0_7.index t (1 : Fin 2) = 0 :=
  (by decide +kernel : ∀ t : Fin grid0.N, _)
theorem idx_facts_8 : ∀ t : Fin cfg0.N, win0_8.index t (0 : Fin 2) = 0 ∧ win0_8.index t (1 : Fin 2) = 0 :=
  (by decide +kernel : ∀ t : Fin grid0.N, _)
theorem idx_facts_9 : ∀ t : Fin cfg0.N, win0_9.index t (0 : Fin 2) = 0 ∧ win0_9.index t (1 : Fin 2) = 0 :=
  (by decide +kernel : ∀ t : Fin grid0.N, _)
theorem idx_facts_10 : ∀ t : Fin cfg0.N, win0_10.index t (0 : Fin 2) = 0 ∧ win0_10.index t (1 : Fin 2) = 0 :=
  (by decide +kernel : ∀ t : Fin grid0.N, _)
theorem idx_facts_11 : ∀ t : Fin cfg0.N, win0_11.index t (0 : Fin 2) = 0 ∧ win0_11.index t (1 : Fin 2) = 0 :=
  (by decide +kernel : ∀ t : Fin grid0.N, _)
theorem idx_facts_12 : ∀ t : Fin cfg0.N, win0_12.index t (0 : Fin 2) = 0 ∧ win0_12.index t (1 : Fin 2) = 0 :=
  (by decide +kernel : ∀ t : Fin grid0.N, _)

/-! ## The arrays the call finds: the arguments, their format changed or laid out as one row -/

theorem V_jets (c : Dev nD) : (V m c main_v0 : S128x200x8.Idx → EReal) = (m ((c : Thread nD τ).loc main_arg0) : S128x200x8.Idx → EReal) := by
  show StableHlo.after hostOps0 (fun b => m (c, b)) (Proc.devRef .tc main_v0) = _
  after_results
  rfl
theorem V_wE (c : Dev nD) : (V m c main_v1 : S8x256.Idx → EReal) = (m ((c : Thread nD τ).loc main_arg1) : S8x256.Idx → EReal) := by
  show StableHlo.after hostOps0 (fun b => m (c, b)) (Proc.devRef .tc main_v1) = _
  after_results
  rfl
theorem V_bE (c : Dev nD) : (V m c main_v7 : S1x256.Idx → EReal) = shapeCast S1x256 (m ((c : Thread nD τ).loc main_arg2) : S256.Idx → EReal) shapeCasts_S256_S1x256 := by
  show StableHlo.after hostOps0 (fun b => m (c, b)) (Proc.devRef .tc main_v7) = _
  after_results
  rfl
theorem V_w0 (c : Dev nD) : (V m c main_v2 : S512x256.Idx → EReal) = (m ((c : Thread nD τ).loc main_arg3) : S512x256.Idx → EReal) := by
  show StableHlo.after hostOps0 (fun b => m (c, b)) (Proc.devRef .tc main_v2) = _
  after_results
  rfl
theorem V_b0 (c : Dev nD) : (V m c main_v8 : S1x256.Idx → EReal) = shapeCast S1x256 (m ((c : Thread nD τ).loc main_arg4) : S256.Idx → EReal) shapeCasts_S256_S1x256 := by
  show StableHlo.after hostOps0 (fun b => m (c, b)) (Proc.devRef .tc main_v8) = _
  after_results
  rfl
theorem V_w1 (c : Dev nD) : (V m c main_v3 : S512x256.Idx → EReal) = (m ((c : Thread nD τ).loc main_arg5) : S512x256.Idx → EReal) := by
  show StableHlo.after hostOps0 (fun b => m (c, b)) (Proc.devRef .tc main_v3) = _
  after_results
  rfl
theorem V_b1 (c : Dev nD) : (V m c main_v9 : S1x256.Idx → EReal) = shapeCast S1x256 (m ((c : Thread nD τ).loc main_arg6) : S256.Idx → EReal) shapeCasts_S256_S1x256 := by
  show StableHlo.after hostOps0 (fun b => m (c, b)) (Proc.devRef .tc main_v9) = _
  after_results
  rfl
theorem V_w2 (c : Dev nD) : (V m c main_v4 : S512x256.Idx → EReal) = (m ((c : Thread nD τ).loc main_arg7) : S512x256.Idx → EReal) := by
  show StableHlo.after hostOps0 (fun b => m (c, b)) (Proc.devRef .tc main_v4) = _
  after_results
  rfl
theorem V_b2 (c : Dev nD) : (V m c main_v10 : S1x256.Idx → EReal) = shapeCast S1x256 (m ((c : Thread nD τ).loc main_arg8) : S256.Idx → EReal) shapeCasts_S256_S1x256 := by
  show StableHlo.after hostOps0 (fun b => m (c, b)) (Proc.devRef .tc main_v10) = _
  after_results
  rfl
theorem V_wR1 (c : Dev nD) : (V m c main_v5 : S256x256.Idx → EReal) = (m ((c : Thread nD τ).loc main_arg9) : S256x256.Idx → EReal) := by
  show StableHlo.after hostOps0 (fun b => m (c, b)) (Proc.devRef .tc main_v5) = _
  after_results
  rfl
theorem V_bR1 (c : Dev nD) : (V m c main_v11 : S1x256.Idx → EReal) = shapeCast S1x256 (m ((c : Thread nD τ).loc main_arg10) : S256.Idx → EReal) shapeCasts_S256_S1x256 := by
  show StableHlo.after hostOps0 (fun b => m (c, b)) (Proc.devRef .tc main_v11) = _
  after_results
  rfl
theorem V_wR2 (c : Dev nD) : (V m c main_v6 : S256x256.Idx → EReal) = (m ((c : Thread nD τ).loc main_arg11) : S256x256.Idx → EReal) := by
  show StableHlo.after hostOps0 (fun b => m (c, b)) (Proc.devRef .tc main_v6) = _
  after_results
  rfl
theorem V_bR2 (c : Dev nD) : (V m c main_v12 : S1x256.Idx → EReal) = shapeCast S1x256 (m ((c : Thread nD τ).loc main_arg12) : S256.Idx → EReal) shapeCasts_S256_S1x256 := by
  show StableHlo.after hostOps0 (fun b => m (c, b)) (Proc.devRef .tc main_v12) = _
  after_results
  rfl

/-! ## The blocks a point stages -/

/-- The embedding's weight as the body holds it at any point: the program's argument 1, entry for entry. -/
theorem wE_block (c : Dev nD) (t : Fin cfg0.N) :
    matOf (k0_pay5 (View.ld (iblk m c 1 t) r0_0)) = matOf (m ((c : Thread nD τ).loc main_arg1) : S8x256.Idx → EReal) := by
  funext i j
  show k0_pay5 (View.ld (iblk m c 1 t) r0_0) (ix2 i j) = _
  unfold k0_pay5
  rw [shapeCast_self, View.ld_unit_zero (S := S8x256) hz2]
  show V m c main_v1 (((cfg0.win 1).blk t).view.emb (ix2 i j)) = (m ((c : Thread nD τ).loc main_arg1) : S8x256.Idx → EReal) (ix2 i j)
  rw [V_wE]
  obtain ⟨e0, e1⟩ := idx_facts_1 t
  refine congrArg _ (funext fun ax => Fin.ext ?_)
  match ax with
  | ⟨0, _⟩ => show win0_1.index t (0 : Fin 2) * 8 + 1 * i.val = i.val; omega
  | ⟨1, _⟩ => show win0_1.index t (1 : Fin 2) * 256 + 1 * j.val = j.val; omega

/-- The embedding's bias as the body holds it at any point: the program's argument 2 laid out as one row. -/
theorem bE_block (c : Dev nD) (t : Fin cfg0.N) :
    rowOf (k0_pay6 (View.ld (iblk m c 2 t) r0_1)) = vecOf (m ((c : Thread nD τ).loc main_arg2) : S256.Idx → EReal) := by
  funext j
  show k0_pay6 (View.ld (iblk m c 2 t) r0_1) (ix2 (0 : Fin 1) j) = _
  unfold k0_pay6
  rw [shapeCast_self, View.ld_unit_zero (S := S1x256) hz2]
  show V m c main_v7 (((cfg0.win 2).blk t).view.emb (ix2 (0 : Fin 1) j)) = (m ((c : Thread nD τ).loc main_arg2) : S256.Idx → EReal) (ix1 j)
  rw [V_bE]
  obtain ⟨e0, e1⟩ := idx_facts_2 t
  have he : ((cfg0.win 2).blk t).view.emb (ix2 (0 : Fin 1) j) = ix2 (0 : Fin 1) j := by
    refine funext fun ax => Fin.ext ?_
    match ax with
    | ⟨0, _⟩ => show win0_2.index t (0 : Fin 2) * 1 + 1 * 0 = 0; omega
    | ⟨1, _⟩ => show win0_2.index t (1 : Fin 2) * 256 + 1 * j.val = j.val; omega
  rw [he, shapeCast_a_1a_apply]

/-- The first round's weight as the body holds it at any point: the program's argument 3, entry for entry. -/
theorem w0_block (c : Dev nD) (t : Fin cfg0.N) :
    matOf (k0_pay7 (View.ld (iblk m c 3 t) r0_2)) = matOf (m ((c : Thread nD τ).loc main_arg3) : S512x256.Idx → EReal) := by
  funext i j
  show k0_pay7 (View.ld (iblk m c 3 t) r0_2) (ix2 i j) = _
  unfold k0_pay7
  rw [shapeCast_self, View.ld_unit_zero (S := S512x256) hz2]
  show V m c main_v2 (((cfg0.win 3).blk t).view.emb (ix2 i j)) = (m ((c : Thread nD τ).loc main_arg3) : S512x256.Idx → EReal) (ix2 i j)
  rw [V_w0]
  obtain ⟨e0, e1⟩ := idx_facts_3 t
  refine congrArg _ (funext fun ax => Fin.ext ?_)
  match ax with
  | ⟨0, _⟩ => show win0_3.index t (0 : Fin 2) * 512 + 1 * i.val = i.val; omega
  | ⟨1, _⟩ => show win0_3.index t (1 : Fin 2) * 256 + 1 * j.val = j.val; omega

/-- The first round's bias as the body holds it at any point: the program's argument 4 laid out as one row. -/
theorem b0_block (c : Dev nD) (t : Fin cfg0.N) :
    rowOf (k0_pay8 (View.ld (iblk m c 4 t) r0_1)) = vecOf (m ((c : Thread nD τ).loc main_arg4) : S256.Idx → EReal) := by
  funext j
  show k0_pay8 (View.ld (iblk m c 4 t) r0_1) (ix2 (0 : Fin 1) j) = _
  unfold k0_pay8
  rw [shapeCast_self, View.ld_unit_zero (S := S1x256) hz2]
  show V m c main_v8 (((cfg0.win 4).blk t).view.emb (ix2 (0 : Fin 1) j)) = (m ((c : Thread nD τ).loc main_arg4) : S256.Idx → EReal) (ix1 j)
  rw [V_b0]
  obtain ⟨e0, e1⟩ := idx_facts_4 t
  have he : ((cfg0.win 4).blk t).view.emb (ix2 (0 : Fin 1) j) = ix2 (0 : Fin 1) j := by
    refine funext fun ax => Fin.ext ?_
    match ax with
    | ⟨0, _⟩ => show win0_4.index t (0 : Fin 2) * 1 + 1 * 0 = 0; omega
    | ⟨1, _⟩ => show win0_4.index t (1 : Fin 2) * 256 + 1 * j.val = j.val; omega
  rw [he, shapeCast_a_1a_apply]

/-- The second round's weight as the body holds it at any point: the program's argument 5, entry for entry. -/
theorem w1_block (c : Dev nD) (t : Fin cfg0.N) :
    matOf (k0_pay9 (View.ld (iblk m c 5 t) r0_2)) = matOf (m ((c : Thread nD τ).loc main_arg5) : S512x256.Idx → EReal) := by
  funext i j
  show k0_pay9 (View.ld (iblk m c 5 t) r0_2) (ix2 i j) = _
  unfold k0_pay9
  rw [shapeCast_self, View.ld_unit_zero (S := S512x256) hz2]
  show V m c main_v3 (((cfg0.win 5).blk t).view.emb (ix2 i j)) = (m ((c : Thread nD τ).loc main_arg5) : S512x256.Idx → EReal) (ix2 i j)
  rw [V_w1]
  obtain ⟨e0, e1⟩ := idx_facts_5 t
  refine congrArg _ (funext fun ax => Fin.ext ?_)
  match ax with
  | ⟨0, _⟩ => show win0_5.index t (0 : Fin 2) * 512 + 1 * i.val = i.val; omega
  | ⟨1, _⟩ => show win0_5.index t (1 : Fin 2) * 256 + 1 * j.val = j.val; omega

/-- The second round's bias as the body holds it at any point: the program's argument 6 laid out as one row. -/
theorem b1_block (c : Dev nD) (t : Fin cfg0.N) :
    rowOf (k0_pay10 (View.ld (iblk m c 6 t) r0_1)) = vecOf (m ((c : Thread nD τ).loc main_arg6) : S256.Idx → EReal) := by
  funext j
  show k0_pay10 (View.ld (iblk m c 6 t) r0_1) (ix2 (0 : Fin 1) j) = _
  unfold k0_pay10
  rw [shapeCast_self, View.ld_unit_zero (S := S1x256) hz2]
  show V m c main_v9 (((cfg0.win 6).blk t).view.emb (ix2 (0 : Fin 1) j)) = (m ((c : Thread nD τ).loc main_arg6) : S256.Idx → EReal) (ix1 j)
  rw [V_b1]
  obtain ⟨e0, e1⟩ := idx_facts_6 t
  have he : ((cfg0.win 6).blk t).view.emb (ix2 (0 : Fin 1) j) = ix2 (0 : Fin 1) j := by
    refine funext fun ax => Fin.ext ?_
    match ax with
    | ⟨0, _⟩ => show win0_6.index t (0 : Fin 2) * 1 + 1 * 0 = 0; omega
    | ⟨1, _⟩ => show win0_6.index t (1 : Fin 2) * 256 + 1 * j.val = j.val; omega
  rw [he, shapeCast_a_1a_apply]

/-- The third round's weight as the body holds it at any point: the program's argument 7, entry for entry. -/
theorem w2_block (c : Dev nD) (t : Fin cfg0.N) :
    matOf (k0_pay11 (View.ld (iblk m c 7 t) r0_2)) = matOf (m ((c : Thread nD τ).loc main_arg7) : S512x256.Idx → EReal) := by
  funext i j
  show k0_pay11 (View.ld (iblk m c 7 t) r0_2) (ix2 i j) = _
  unfold k0_pay11
  rw [shapeCast_self, View.ld_unit_zero (S := S512x256) hz2]
  show V m c main_v4 (((cfg0.win 7).blk t).view.emb (ix2 i j)) = (m ((c : Thread nD τ).loc main_arg7) : S512x256.Idx → EReal) (ix2 i j)
  rw [V_w2]
  obtain ⟨e0, e1⟩ := idx_facts_7 t
  refine congrArg _ (funext fun ax => Fin.ext ?_)
  match ax with
  | ⟨0, _⟩ => show win0_7.index t (0 : Fin 2) * 512 + 1 * i.val = i.val; omega
  | ⟨1, _⟩ => show win0_7.index t (1 : Fin 2) * 256 + 1 * j.val = j.val; omega

/-- The third round's bias as the body holds it at any point: the program's argument 8 laid out as one row. -/
theorem b2_block (c : Dev nD) (t : Fin cfg0.N) :
    rowOf (k0_pay12 (View.ld (iblk m c 8 t) r0_1)) = vecOf (m ((c : Thread nD τ).loc main_arg8) : S256.Idx → EReal) := by
  funext j
  show k0_pay12 (View.ld (iblk m c 8 t) r0_1) (ix2 (0 : Fin 1) j) = _
  unfold k0_pay12
  rw [shapeCast_self, View.ld_unit_zero (S := S1x256) hz2]
  show V m c main_v10 (((cfg0.win 8).blk t).view.emb (ix2 (0 : Fin 1) j)) = (m ((c : Thread nD τ).loc main_arg8) : S256.Idx → EReal) (ix1 j)
  rw [V_b2]
  obtain ⟨e0, e1⟩ := idx_facts_8 t
  have he : ((cfg0.win 8).blk t).view.emb (ix2 (0 : Fin 1) j) = ix2 (0 : Fin 1) j := by
    refine funext fun ax => Fin.ext ?_
    match ax with
    | ⟨0, _⟩ => show win0_8.index t (0 : Fin 2) * 1 + 1 * 0 = 0; omega
    | ⟨1, _⟩ => show win0_8.index t (1 : Fin 2) * 256 + 1 * j.val = j.val; omega
  rw [he, shapeCast_a_1a_apply]

/-- The read-out's first weight as the body holds it at any point: the program's argument 9, entry for entry. -/
theorem wR1_block (c : Dev nD) (t : Fin cfg0.N) :
    matOf (k0_pay13 (View.ld (iblk m c 9 t) r0_3)) = matOf (m ((c : Thread nD τ).loc main_arg9) : S256x256.Idx → EReal) := by
  funext i j
  show k0_pay13 (View.ld (iblk m c 9 t) r0_3) (ix2 i j) = _
  unfold k0_pay13
  rw [shapeCast_self, View.ld_unit_zero (S := S256x256) hz2]
  show V m c main_v5 (((cfg0.win 9).blk t).view.emb (ix2 i j)) = (m ((c : Thread nD τ).loc main_arg9) : S256x256.Idx → EReal) (ix2 i j)
  rw [V_wR1]
  obtain ⟨e0, e1⟩ := idx_facts_9 t
  refine congrArg _ (funext fun ax => Fin.ext ?_)
  match ax with
  | ⟨0, _⟩ => show win0_9.index t (0 : Fin 2) * 256 + 1 * i.val = i.val; omega
  | ⟨1, _⟩ => show win0_9.index t (1 : Fin 2) * 256 + 1 * j.val = j.val; omega

/-- The read-out's first bias as the body holds it at any point: the program's argument 10 laid out as one row. -/
theorem bR1_block (c : Dev nD) (t : Fin cfg0.N) :
    rowOf (k0_pay14 (View.ld (iblk m c 10 t) r0_1)) = vecOf (m ((c : Thread nD τ).loc main_arg10) : S256.Idx → EReal) := by
  funext j
  show k0_pay14 (View.ld (iblk m c 10 t) r0_1) (ix2 (0 : Fin 1) j) = _
  unfold k0_pay14
  rw [shapeCast_self, View.ld_unit_zero (S := S1x256) hz2]
  show V m c main_v11 (((cfg0.win 10).blk t).view.emb (ix2 (0 : Fin 1) j)) = (m ((c : Thread nD τ).loc main_arg10) : S256.Idx → EReal) (ix1 j)
  rw [V_bR1]
  obtain ⟨e0, e1⟩ := idx_facts_10 t
  have he : ((cfg0.win 10).blk t).view.emb (ix2 (0 : Fin 1) j) = ix2 (0 : Fin 1) j := by
    refine funext fun ax => Fin.ext ?_
    match ax with
    | ⟨0, _⟩ => show win0_10.index t (0 : Fin 2) * 1 + 1 * 0 = 0; omega
    | ⟨1, _⟩ => show win0_10.index t (1 : Fin 2) * 256 + 1 * j.val = j.val; omega
  rw [he, shapeCast_a_1a_apply]

/-- The read-out's second weight as the body holds it at any point: the program's argument 11, entry for entry. -/
theorem wR2_block (c : Dev nD) (t : Fin cfg0.N) :
    matOf (k0_pay15 (View.ld (iblk m c 11 t) r0_3)) = matOf (m ((c : Thread nD τ).loc main_arg11) : S256x256.Idx → EReal) := by
  funext i j
  show k0_pay15 (View.ld (iblk m c 11 t) r0_3) (ix2 i j) = _
  unfold k0_pay15
  rw [shapeCast_self, View.ld_unit_zero (S := S256x256) hz2]
  show V m c main_v6 (((cfg0.win 11).blk t).view.emb (ix2 i j)) = (m ((c : Thread nD τ).loc main_arg11) : S256x256.Idx → EReal) (ix2 i j)
  rw [V_wR2]
  obtain ⟨e0, e1⟩ := idx_facts_11 t
  refine congrArg _ (funext fun ax => Fin.ext ?_)
  match ax with
  | ⟨0, _⟩ => show win0_11.index t (0 : Fin 2) * 256 + 1 * i.val = i.val; omega
  | ⟨1, _⟩ => show win0_11.index t (1 : Fin 2) * 256 + 1 * j.val = j.val; omega

/-- The read-out's second bias as the body holds it at any point: the program's argument 12 laid out as one row. -/
theorem bR2_block (c : Dev nD) (t : Fin cfg0.N) :
    rowOf (k0_pay16 (View.ld (iblk m c 12 t) r0_1)) = vecOf (m ((c : Thread nD τ).loc main_arg12) : S256.Idx → EReal) := by
  funext j
  show k0_pay16 (View.ld (iblk m c 12 t) r0_1) (ix2 (0 : Fin 1) j) = _
  unfold k0_pay16
  rw [shapeCast_self, View.ld_unit_zero (S := S1x256) hz2]
  show V m c main_v12 (((cfg0.win 12).blk t).view.emb (ix2 (0 : Fin 1) j)) = (m ((c : Thread nD τ).loc main_arg12) : S256.Idx → EReal) (ix1 j)
  rw [V_bR2]
  obtain ⟨e0, e1⟩ := idx_facts_12 t
  have he : ((cfg0.win 12).blk t).view.emb (ix2 (0 : Fin 1) j) = ix2 (0 : Fin 1) j := by
    refine funext fun ax => Fin.ext ?_
    match ax with
    | ⟨0, _⟩ => show win0_12.index t (0 : Fin 2) * 1 + 1 * 0 = 0; omega
    | ⟨1, _⟩ => show win0_12.index t (1 : Fin 2) * 256 + 1 * j.val = j.val; omega
  rw [he, shapeCast_a_1a_apply]

/-- A point's jets: jet `j` of the block at point `t` is jet `8 t + j` of the batch. -/
theorem jets_block (c : Dev nD) (t : Fin cfg0.N) (j : Fin 8) (b : Fin 128) (hb : b.val = 8 * t.val + j.val) :
    slab (iblk m c 0 t) j = jetOf (jetsArr m c) b := by
  funext n f
  show V m c main_v0 (((cfg0.win 0).blk t).view.emb (ix3 j n f)) = (m ((c : Thread nD τ).loc main_arg0) : S128x200x8.Idx → EReal) (ix3 b n f)
  rw [V_jets]
  obtain ⟨e0, e1, e2, -⟩ := idx_facts t
  refine congrArg _ (funext fun ax => Fin.ext ?_)
  match ax with
  | ⟨0, _⟩ => show win0_0.index t (0 : Fin 3) * 8 + 1 * j.val = b.val; omega
  | ⟨1, _⟩ => show win0_0.index t (1 : Fin 3) * 200 + 1 * n.val = n.val; omega
  | ⟨2, _⟩ => show win0_0.index t (2 : Fin 3) * 8 + 1 * f.val = f.val; omega

/-- The weights the body loads at any point are the network's. -/
theorem params_block (c : Dev nD) (t : Fin cfg0.N) :
    paramsOfLoaded (loaded (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) = netParams m c := by
  unfold paramsOfLoaded loaded netParams paramsOf
  dsimp only
  rw [Params.mk.injEq]
  exact ⟨wE_block m c t, bE_block m c t, w0_block m c t, b0_block m c t, w1_block m c t, b1_block m c t, w2_block m c t, b2_block m c t,
    wR1_block m c t, bR1_block m c t, wR2_block m c t, bR2_block m c t⟩

/-! ## What the body leaves in the two result windows, entry by entry -/

/-- The weights' window after the body: entry `(j, n, k)` is jet `j`'s last weights at `(n, k)`. -/
theorem weightsBlock_apply (x0 : Vec Ideal S8x200x8 .bf16) (x1 : Vec Ideal S8x256 .bf16) (x2 : Vec Ideal S1x256 .f32) (x3 : Vec Ideal S512x256 .bf16) (x4 : Vec Ideal S1x256 .f32)
    (x5 : Vec Ideal S512x256 .bf16) (x6 : Vec Ideal S1x256 .f32) (x7 : Vec Ideal S512x256 .bf16) (x8 : Vec Ideal S1x256 .f32)
    (x9 : Vec Ideal S256x256 .bf16) (x10 : Vec Ideal S1x256 .f32) (x11 : Vec Ideal S256x256 .bf16) (x12 : Vec Ideal S1x256 .f32)
    (j : Fin 8) (n k : Fin 200) :
    out0_14 x0 x1 x2 x3 x4 x5 x6 x7 x8 x9 x10 x11 x12 (ix3 j n k)
      = lastWeights (paramsOfLoaded (loaded x1 x2 x3 x4 x5 x6 x7 x8 x9 x10 x11 x12)) (slab x0 j) n k := by
  rw [out0_14_eq]
  refine (View.canon_apply_of_pieces
    (fun y : S8x200x200.Idx => lastWeights (paramsOfLoaded (loaded x1 x2 x3 x4 x5 x6 x7 x8 x9 x10 x11 x12)) (slab x0 (y 0)) (y 1) (y 2))
    _ ?_ (ix3 j n k) (cover0_14 _ _ _ _ _ _ _ _ (ix3 j n k))).trans rfl
  intro p hp
  simp only [List.mem_cons, List.not_mem_nil, or_false] at hp
  rcases hp with rfl | rfl | rfl | rfl | rfl | rfl | rfl | rfl
  all_goals
    intro x
    obtain ⟨u, a, b, rfl⟩ : ∃ (u : Fin 1) (a b : Fin 200), x = ix3 u a b := ⟨x 0, x 1, x 2, eq_ix3 x⟩
    dsimp only
    rw [lastWeightsV_apply]
    have hu : u.val = 0 := by omega
    refine congr (congr (congrArg _ ?_) ?_) ?_
    · funext i f
      show x0 _ = x0 _
      refine congrArg x0 (funext fun ax => Fin.ext ?_)
      match ax with
      | ⟨0, _⟩ => (show (_ : Nat) + 1 * 0 = _ + 1 * u.val); rw [hu]; rfl
      | ⟨1, _⟩ => show 0 + 1 * i.val = i.val; omega
      | ⟨2, _⟩ => show 0 + 1 * f.val = f.val; omega
    · apply Fin.ext; show a.val = 0 + 1 * a.val; omega
    · apply Fin.ext; show b.val = 0 + 1 * b.val; omega

/-- The read-out's window after the body: entry `(j, 0, k)` is jet `j`'s read-out at `k`. -/
theorem readoutBlock_apply (x0 : Vec Ideal S8x200x8 .bf16) (x1 : Vec Ideal S8x256 .bf16) (x2 : Vec Ideal S1x256 .f32) (x3 : Vec Ideal S512x256 .bf16) (x4 : Vec Ideal S1x256 .f32)
    (x5 : Vec Ideal S512x256 .bf16) (x6 : Vec Ideal S1x256 .f32) (x7 : Vec Ideal S512x256 .bf16) (x8 : Vec Ideal S1x256 .f32)
    (x9 : Vec Ideal S256x256 .bf16) (x10 : Vec Ideal S1x256 .f32) (x11 : Vec Ideal S256x256 .bf16) (x12 : Vec Ideal S1x256 .f32)
    (j : Fin 8) (v : Fin 1) (k : Fin 256) :
    out0_13 x0 x1 x2 x3 x4 x5 x6 x7 x8 x9 x10 x11 x12 (ix3 j v k)
      = readout (paramsOfLoaded (loaded x1 x2 x3 x4 x5 x6 x7 x8 x9 x10 x11 x12)) (slab x0 j) k := by
  rw [out0_13_eq]
  refine (View.canon_apply_of_pieces
    (fun y : S8x1x256.Idx => readout (paramsOfLoaded (loaded x1 x2 x3 x4 x5 x6 x7 x8 x9 x10 x11 x12)) (slab x0 (y 0)) (y 2))
    _ ?_ (ix3 j v k) (cover0_13 _ _ _ _ _ _ _ _ (ix3 j v k))).trans rfl
  intro p hp
  simp only [List.mem_cons, List.not_mem_nil, or_false] at hp
  rcases hp with rfl | rfl | rfl | rfl | rfl | rfl | rfl | rfl
  all_goals
    intro x
    obtain ⟨u, a, b, rfl⟩ : ∃ (u a : Fin 1) (b : Fin 256), x = ix3 u a b := ⟨x 0, x 1, x 2, eq_ix3 x⟩
    dsimp only
    rw [readoutV_apply]
    have hu : u.val = 0 := by omega
    refine congr (congrArg _ ?_) ?_
    · funext i f
      show x0 _ = x0 _
      refine congrArg x0 (funext fun ax => Fin.ext ?_)
      match ax with
      | ⟨0, _⟩ => (show (_ : Nat) + 1 * 0 = _ + 1 * u.val); rw [hu]; rfl
      | ⟨1, _⟩ => show 0 + 1 * i.val = i.val; omega
      | ⟨2, _⟩ => show 0 + 1 * f.val = f.val; omega
    · apply Fin.ext; show b.val = 0 + 1 * b.val; omega

/-! ## What a point writes back -/

/-- The read-out array with its unit axis: entry `(b, 0, k)` is jet `b`'s read-out at `k`. -/
def readoutArr3 (p : Params) (jets : (⟨3, ![128, 200, 8]⟩ : Shape).Idx → EReal) : (⟨3, ![128, 1, 256]⟩ : Shape).Idx → EReal :=
  fun i => readout p (jetOf jets (i 0)) (i 2)

/-- Point `t` writes back block `t` of the array of the jets' last weights. -/
theorem flushed14_eq (c : Dev nD) (t : Fin cfg0.N) :
    (dats m 0 c).flushed 14 t = ((cfg0.win 14).blk t).view.read (Elt Ideal) (weightsArr (netParams m c) (jetsArr m c)) := by
  show (cfg0.win 14).cut (grid0.coords t) ((dats m 0 c).after 14 t) = _
  rw [after0_14]
  funext y
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = weightsArr (netParams m c) (jetsArr m c) (((cfg0.win 14).blk t).view.emb y)
  obtain ⟨j, n, k, rfl⟩ : ∃ (j : Fin 8) (n k : Fin 200), y = ix3 j n k := ⟨y 0, y 1, y 2, eq_ix3 y⟩
  rw [weightsBlock_apply, params_block m c t]
  obtain ⟨-, -, -, -, -, -, e0, e1, e2⟩ := idx_facts t
  have ht : t.val < 16 := by have := t.isLt; have h16 : cfg0.N = 16 := N_0; omega
  have he : ((cfg0.win 14).blk t).view.emb (ix3 j n k) = ix3 (⟨8 * t.val + j.val, by omega⟩ : Fin 128) n k := by
    refine funext fun ax => Fin.ext ?_
    match ax with
    | ⟨0, _⟩ => show win0_14.index t (0 : Fin 3) * 8 + 1 * j.val = 8 * t.val + j.val; omega
    | ⟨1, _⟩ => show win0_14.index t (1 : Fin 3) * 200 + 1 * n.val = n.val; omega
    | ⟨2, _⟩ => show win0_14.index t (2 : Fin 3) * 200 + 1 * k.val = k.val; omega
  rw [he, weightsArr_ix3, jets_block m c t j ⟨8 * t.val + j.val, by omega⟩ rfl]

/-- Point `t` writes back block `t` of the array of the jets' read-outs. -/
theorem flushed13_eq (c : Dev nD) (t : Fin cfg0.N) :
    (dats m 0 c).flushed 13 t = ((cfg0.win 13).blk t).view.read (Elt Ideal) (readoutArr3 (netParams m c) (jetsArr m c)) := by
  show (cfg0.win 13).cut (grid0.coords t) ((dats m 0 c).after 13 t) = _
  rw [after0_13]
  funext y
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = readoutArr3 (netParams m c) (jetsArr m c) (((cfg0.win 13).blk t).view.emb y)
  obtain ⟨j, v, k, rfl⟩ : ∃ (j : Fin 8) (v : Fin 1) (k : Fin 256), y = ix3 j v k := ⟨y 0, y 1, y 2, eq_ix3 y⟩
  rw [readoutBlock_apply, params_block m c t]
  obtain ⟨-, -, -, e0, e1, e2, -⟩ := idx_facts t
  have ht : t.val < 16 := by have := t.isLt; have h16 : cfg0.N = 16 := N_0; omega
  have hv : v.val = 0 := by omega
  have he : ((cfg0.win 13).blk t).view.emb (ix3 j v k) = ix3 (⟨8 * t.val + j.val, by omega⟩ : Fin 128) (0 : Fin 1) k := by
    refine funext fun ax => Fin.ext ?_
    match ax with
    | ⟨0, _⟩ => show win0_13.index t (0 : Fin 3) * 8 + 1 * j.val = 8 * t.val + j.val; omega
    | ⟨1, _⟩ => show win0_13.index t (1 : Fin 3) * 1 + 1 * v.val = 0; omega
    | ⟨2, _⟩ => show win0_13.index t (2 : Fin 3) * 256 + 1 * k.val = k.val; omega
  rw [he]
  show _ = readout (netParams m c) (jetOf (jetsArr m c) ⟨8 * t.val + j.val, _⟩) k
  rw [jets_block m c t j ⟨8 * t.val + j.val, by omega⟩ rfl]

/-! ## The arrays after the run -/

/-- Every entry of the weights' array lies in the block of the point that holds its jet. -/
theorem cover14 (i : S128x200x200.Idx) : ∃ t : Fin cfg0.N, (cfg0.win 14).flush t = true ∧ i ∈ ((cfg0.win 14).blk t).view.set := by
  have hi0 : (i 0).val < 128 := (i 0).isLt
  have hi1 : (i 1).val < 200 := (i 1).isLt
  have hi2 : (i 2).val < 200 := (i 2).isLt
  have h16 : cfg0.N = 16 := N_0
  obtain ⟨t, ht⟩ : ∃ t : Fin cfg0.N, t.val = (i 0).val / 8 := ⟨⟨(i 0).val / 8, by omega⟩, rfl⟩
  refine ⟨t, flush0_14 t, ?_⟩
  show i ∈ ((View.whole main_v13_1).slice (win0_14.rect t)).set
  rw [View.set_slice_whole, Rect.mem_set_unit]
  obtain ⟨-, -, -, -, -, -, e0, e1, e2⟩ := idx_facts t
  intro ax
  match ax with
  | ⟨0, _⟩ => show win0_14.index t (0 : Fin 3) * 8 ≤ (i 0).val ∧ (i 0).val < win0_14.index t (0 : Fin 3) * 8 + 8; omega
  | ⟨1, _⟩ => show win0_14.index t (1 : Fin 3) * 200 ≤ (i 1).val ∧ (i 1).val < win0_14.index t (1 : Fin 3) * 200 + 200; omega
  | ⟨2, _⟩ => show win0_14.index t (2 : Fin 3) * 200 ≤ (i 2).val ∧ (i 2).val < win0_14.index t (2 : Fin 3) * 200 + 200; omega

/-- Every entry of the read-out's array lies in the block of the point that holds its jet. -/
theorem cover13 (i : S128x1x256.Idx) : ∃ t : Fin cfg0.N, (cfg0.win 13).flush t = true ∧ i ∈ ((cfg0.win 13).blk t).view.set := by
  have hi0 : (i 0).val < 128 := (i 0).isLt
  have hi1 : (i 1).val < 1 := (i 1).isLt
  have hi2 : (i 2).val < 256 := (i 2).isLt
  have h16 : cfg0.N = 16 := N_0
  obtain ⟨t, ht⟩ : ∃ t : Fin cfg0.N, t.val = (i 0).val / 8 := ⟨⟨(i 0).val / 8, by omega⟩, rfl⟩
  refine ⟨t, flush0_13 t, ?_⟩
  show i ∈ ((View.whole main_v13_0).slice (win0_13.rect t)).set
  rw [View.set_slice_whole, Rect.mem_set_unit]
  obtain ⟨-, -, -, e0, e1, e2, -⟩ := idx_facts t
  intro ax
  match ax with
  | ⟨0, _⟩ => show win0_13.index t (0 : Fin 3) * 8 ≤ (i 0).val ∧ (i 0).val < win0_13.index t (0 : Fin 3) * 8 + 8; omega
  | ⟨1, _⟩ => show win0_13.index t (1 : Fin 3) * 1 ≤ (i 1).val ∧ (i 1).val < win0_13.index t (1 : Fin 3) * 1 + 1; omega
  | ⟨2, _⟩ => show win0_13.index t (2 : Fin 3) * 256 ≤ (i 2).val ∧ (i 2).val < win0_13.index t (2 : Fin 3) * 256 + 256; omega

/-- The weights' array after the run: every jet's last weights. -/
theorem final14 (c : Dev nD) : (dats m 0 c).arrAt 14 cfg0.N = weightsArr (netParams m c) (jetsArr m c) :=
  (dats m 0 c).arrAt_eq_of_cover 14 (weightsArr (netParams m c) (jetsArr m c)) (fun t _ => flushed14_eq m c t) cover14

/-- The read-out's array after the run: every jet's read-out. -/
theorem final13 (c : Dev nD) : (dats m 0 c).arrAt 13 cfg0.N = readoutArr3 (netParams m c) (jetsArr m c) :=
  (dats m 0 c).arrAt_eq_of_cover 13 (readoutArr3 (netParams m c) (jetsArr m c)) (fun t _ => flushed13_eq m c t) cover13

/-- The line after the call drops the read-out array's unit axis. -/
theorem tail_eq (c : Dev nD) :
    (Pipeline.afterTail₀ cfgs (dats m) 0 (V0 m) [hostOps1] c main_v14 : S128x256.Idx → EReal)
      = readoutArr (netParams m c) (jetsArr m c) := by
  unfold Pipeline.afterTail₀
  show StableHlo.after hostOps1 _ (Proc.devRef .tc main_v14) = _
  after_results
  have hA : (Pipeline.withArrays (cfgs 0).spec c (V0 m c) (fun w => (dats m 0 c).arrAt w (cfgs 0).N) (Proc.devRef .tc main_v13_0) : S128x1x256.Idx → EReal)
      = readoutArr3 (netParams m c) (jetsArr m c) :=
    (Pipeline.withArrays_arr spec0 launch0.win.arr_inj c _ _ 13).trans (final13 m c)
  funext i
  obtain ⟨b, k, rfl⟩ : ∃ (b : Fin 128) (k : Fin 256), i = ix2 b k := ⟨i 0, i 1, eq_ix2 i⟩
  show shapeCast S128x256 (Pipeline.withArrays (cfgs 0).spec c (V0 m c) (fun w => (dats m 0 c).arrAt w (cfgs 0).N) (Proc.devRef .tc main_v13_0) : S128x1x256.Idx → EReal)
    shapeCasts_S128x1x256_S128x256 (ix2 b k) = _
  refine (shapeCast_apply _ _ (ix2 b k) (ix3 b (0 : Fin 1) k) ?_).trans ?_
  · rw [Shape.rowMajor_val_three, Shape.rowMajor_val_two]
    show (b.val * 1 + 0) * 256 + k.val = b.val * 256 + k.val
    omega
  · rw [hA]
    rfl

/-- The kernel's run: it ends with its two results at the jets' read-outs and last weights, the arguments unchanged. -/
theorem run : θ_run defs (onTc (τ := τ) (main (F := Ideal))) ⟨m, fun _ => 0, ρ⟩ (fun r => ∀ c : Dev nD,
      r.2.mem ((c.tc : Thread nD τ).loc main_v14) = readoutArr (netParams m c) (jetsArr m c)
      ∧ r.2.mem ((c.tc : Thread nD τ).loc main_v13_1) = weightsArr (netParams m c) (jetsArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).2 main_v14 (Pipeline.mem_restRefs_of main_v14 (by decide) (by decide))).trans (tail_eq m c),
      ((h c).1 14).trans (final14 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩) (run_main m ρ)

end Cert.KernelIdeal.Arr

end
-- ==== Proof.RefOps.lean ====
/-
  The reference's network, as the host operations spell it over the whole batch.

  The reference computes every jet at once: each operation carries the batch as a leading axis of extent 128.
  This module names the stretches of host operations that make up the network's steps — the embedding, the
  scores, the rows' weights, the update through the concatenation of the hidden rows and the messages, the
  read-out.
-/
import proofs.«170520_g85813446574462_cont_9to1c4b_288_15_alg».proof.Proof.Gen.ReferenceIdeal

set_option maxRecDepth 16384

noncomputable section

namespace Cert.ReferenceIdeal.Ref

open Cert.ReferenceIdeal Cert.ReferenceIdeal.Gen Idealize.ShloMosaic Idealize.ShloMosaic.TcCoe Idealize.SL.Sem

variable {F : FTy → Type} [FloatOps F]

/-- A bias vector copied to every jet and every node. -/
def biasR (b : FVec F S256 .f32) : FVec F S128x200x256 .f32 :=
  broadcastInDim S128x200x256 ![0, 1, 2] bcast_S1x1x256_S128x200x256_0_1_2 (broadcastInDim S1x1x256 ![2] bcast_S256_S1x1x256_2 b)

/-- A value per jet and node copied along that node's row of 200. -/
def alongRowR (v : FVec F S128x200 .f32) : FVec F S128x200x200 .f32 :=
  broadcastInDim S128x200x200 ![0, 1, 2] bcast_S128x200x1_S128x200x200_0_1_2 (broadcastInDim S128x200x1 ![0, 1] bcast_S128x200_S128x200x1_0_1 v)

/-- The embedding. -/
def embedR (jets : FVec F S128x200x8 .f32) (wE : FVec F S8x256 .f32) (bE : FVec F S256 .f32) : FVec F S128x200x256 .f32 :=
  Host.tanh (addf (Host.dotGeneral dot_S128x200x8_S8x256_S128x200x256_2_0_01_1_n_n none jets wE) (biasR bE))

/-- The scores. -/
def scoreR (h : FVec F S128x200x256 .f32) : FVec F S128x200x200 .f32 :=
  mulf (Host.dotGeneral dot_S128x200x256_S128x200x256_S128x200x200_2_2_1_1_0_0 none h h)
    (broadcastInDim S128x200x200 ![] bcast_S_S128x200x200 (constant S_ .f32 0x3D800000#32))

/-- The exponentials of the scores less their row's greatest. -/
def expR (l : FVec F S128x200x200 .f32) : FVec F S128x200x200 .f32 :=
  Host.exp (subf l (alongRowR (maximumf (broadcastInDim S128x200 ![] bcast_S_S128x200 (constant S_ .f32 0xFF800000#32))
    (Host.reduce FloatOps.maximumf l (constant S_ .f32 0xFF800000#32) reducesTo_S128x200x200_S128x200_d2 h_S_))))

/-- Each row over its sum. -/
def normR (e : FVec F S128x200x200 .f32) : FVec F S128x200x200 .f32 :=
  Host.divf e (alongRowR (Host.reduceAdd e (constant S_ .f32 0x00000000#32) reducesTo_S128x200x200_S128x200_d2 h_S_))

/-- The rows' weights from the hidden rows. -/
def weightsR (h : FVec F S128x200x256 .f32) : FVec F S128x200x200 .f32 := normR (expR (scoreR h))

/-- The update: the hidden rows and the messages side by side, through the 512-row weight, the bias, tanh. -/
def updateR (w : FVec F S512x256 .f32) (b : FVec F S256 .f32) (h : FVec F S128x200x256 .f32) (a : FVec F S128x200x200 .f32) :
    FVec F S128x200x256 .f32 :=
  Host.tanh (addf (Host.dotGeneral dot_S128x200x512_S512x256_S128x200x256_2_0_01_1_n_n none
    (concatenate S128x200x512 2 [⟨S128x200x256, h⟩,
      ⟨S128x200x256, (Host.dotGeneral dot_S128x200x200_S128x200x256_S128x200x256_2_1_1_2_0_0 none a h)⟩]
      concatenates_S128x200x256_S128x200x256_S128x200x512_d2) w) (biasR b))

/-- One round. -/
def roundR (w : FVec F S512x256 .f32) (b : FVec F S256 .f32) (h : FVec F S128x200x256 .f32) : FVec F S128x200x256 .f32 :=
  updateR w b h (weightsR h)

/-- The read-out's first layer. -/
def readHiddenR (w : FVec F S256x256 .f32) (b : FVec F S256 .f32) (h : FVec F S128x200x256 .f32) : FVec F S128x200x256 .f32 :=
  Host.tanh (addf (Host.dotGeneral dot_S128x200x256_S256x256_S128x200x256_2_0_01_1_n_n none h w) (biasR b))

/-- The read-out's second layer, bias and all, summed over the nodes. -/
def pooledR (w : FVec F S256x256 .f32) (b : FVec F S256 .f32) (r : FVec F S128x200x256 .f32) : FVec F S128x256 .f32 :=
  Host.reduceAdd (addf (Host.dotGeneral dot_S128x200x256_S256x256_S128x200x256_2_0_01_1_n_n none r w) (biasR b))
    (constant S_ .f32 0x00000000#32) reducesTo_S128x200x256_S128x256_d1 h_S_

/-- The reference's thirteen arrays. -/
structure Args (F : FTy → Type) [FloatOps F] where
  jets : FVec F S128x200x8 .f32
  wE : FVec F S8x256 .f32
  bE : FVec F S256 .f32
  w0 : FVec F S512x256 .f32
  b0 : FVec F S256 .f32
  w1 : FVec F S512x256 .f32
  b1 : FVec F S256 .f32
  w2 : FVec F S512x256 .f32
  b2 : FVec F S256 .f32
  wR1 : FVec F S256x256 .f32
  bR1 : FVec F S256 .f32
  wR2 : FVec F S256x256 .f32
  bR2 : FVec F S256 .f32

/-- The hidden rows after the embedding and two rounds. -/
def hidden2R (a : Args F) : FVec F S128x200x256 .f32 :=
  roundR a.w1 a.b1 (roundR a.w0 a.b0 (embedR a.jets a.wE a.bE))

/-- The reference's second result. -/
def lastWeightsR (a : Args F) : FVec F S128x200x200 .f32 := weightsR (hidden2R a)

/-- The reference's first result. -/
def readoutR (a : Args F) : FVec F S128x256 .f32 :=
  pooledR a.wR2 a.bR2 (readHiddenR a.wR1 a.bR1 (roundR a.w2 a.b2 (hidden2R a)))

end Cert.ReferenceIdeal.Ref

end
-- ==== Proof.RefAttn.lean ====
/-
  The reference's embedding, scores and weights, entry by entry: each is the jet's own.
-/
import proofs.«170520_g85813446574462_cont_9to1c4b_288_15_alg».proof.Proof.RefOps
import proofs.«170520_g85813446574462_cont_9to1c4b_288_15_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section
namespace Cert.ReferenceIdeal.Ref

open Idealize.ShloMosaic Idealize.ShloMosaic.ValueIdx Cert.ReferenceIdeal Cert.ReferenceIdeal.Gen Cert.Mpnn

/-- A bias copied to every jet and every node reads, at column `k`, the bias's entry `k`. -/
theorem biasR_apply (b : FVec Ideal S256 .f32) (bi : Fin 128) (n : Fin 200) (k : Fin 256) :
    biasR b (ix3 bi n k) = b (ix1 k) := by
  unfold biasR
  refine (broadcastInDim_apply _ _ _ (ix3 bi n k) (ix3 (0 : Fin 1) (0 : Fin 1) k) ?_).trans ?_
  · intro a; match a with | ⟨0, _⟩ => rfl | ⟨1, _⟩ => rfl | ⟨2, _⟩ => rfl
  · refine broadcastInDim_apply _ _ _ _ (ix1 k) ?_
    intro a; match a with | ⟨0, _⟩ => rfl

/-- A value per jet and node copied along the node's row reads, anywhere on the row, that value. -/
theorem alongRowR_apply (v : FVec Ideal S128x200 .f32) (bi : Fin 128) (n m : Fin 200) :
    alongRowR v (ix3 bi n m) = v (ix2 bi n) := by
  unfold alongRowR
  refine (broadcastInDim_apply _ _ _ (ix3 bi n m) (ix3 bi n (0 : Fin 1)) ?_).trans ?_
  · intro a; match a with | ⟨0, _⟩ => rfl | ⟨1, _⟩ => rfl | ⟨2, _⟩ => rfl
  · refine broadcastInDim_apply _ _ _ _ (ix2 bi n) ?_
    intro a; match a with | ⟨0, _⟩ => rfl | ⟨1, _⟩ => rfl

/-! ## The scores' product: where its operands are read -/

theorem lhs_score_0 (j : S128x200x200.Idx) (k : dot_S128x200x256_S128x200x256_S128x200x200_2_2_1_1_0_0.contr.Idx) :
    (dot_S128x200x256_S128x200x256_S128x200x200_2_2_1_1_0_0.lhsIdx j k 0).val = (j 0).val := rfl
theorem lhs_score_1 (j : S128x200x200.Idx) (k : dot_S128x200x256_S128x200x256_S128x200x200_2_2_1_1_0_0.contr.Idx) :
    (dot_S128x200x256_S128x200x256_S128x200x200_2_2_1_1_0_0.lhsIdx j k 1).val = (j 1).val := rfl
theorem lhs_score_2 (j : S128x200x200.Idx) (k : dot_S128x200x256_S128x200x256_S128x200x200_2_2_1_1_0_0.contr.Idx) :
    (dot_S128x200x256_S128x200x256_S128x200x200_2_2_1_1_0_0.lhsIdx j k 2).val = (k ⟨0, by decide⟩).val :=
  dot_S128x200x256_S128x200x256_S128x200x200_2_2_1_1_0_0.lhsIdx_val_of_single rfl j k
theorem rhs_score_0 (j : S128x200x200.Idx) (k : dot_S128x200x256_S128x200x256_S128x200x200_2_2_1_1_0_0.contr.Idx) :
    (dot_S128x200x256_S128x200x256_S128x200x200_2_2_1_1_0_0.rhsIdx j k 0).val = (j 0).val := rfl
theorem rhs_score_1 (j : S128x200x200.Idx) (k : dot_S128x200x256_S128x200x256_S128x200x200_2_2_1_1_0_0.contr.Idx) :
    (dot_S128x200x256_S128x200x256_S128x200x200_2_2_1_1_0_0.rhsIdx j k 1).val = (j 2).val := rfl
theorem rhs_score_2 (j : S128x200x200.Idx) (k : dot_S128x200x256_S128x200x256_S128x200x200_2_2_1_1_0_0.contr.Idx) :
    (dot_S128x200x256_S128x200x256_S128x200x200_2_2_1_1_0_0.rhsIdx j k 2).val = (k ⟨0, by decide⟩).val :=
  dot_S128x200x256_S128x200x256_S128x200x200_2_2_1_1_0_0.rhsIdx_val_of_single rfl j k

/-- The scores' product at an entry: the inner product of the jet's two hidden rows. -/
theorem scoreDot_apply (h : FVec Ideal S128x200x256 .f32) (b : Fin 128) (n m : Fin 200) :
    Host.dotGeneral (F := Ideal) dot_S128x200x256_S128x200x256_S128x200x200_2_2_1_1_0_0 none h h (ix3 b n m)
      = ∑ c : Fin 256, h (ix3 b n c) * h (ix3 b m c) := by
  refine (Ideal.dotGeneral_apply _ _ _ h h (ix3 b n m)).trans ?_
  rw [← Equiv.sum_comp (contrEquiv1 dot_S128x200x256_S128x200x256_S128x200x200_2_2_1_1_0_0 256 rfl rfl).symm]
  refine Finset.sum_congr rfl fun c _ => ?_
  have hl : dot_S128x200x256_S128x200x256_S128x200x200_2_2_1_1_0_0.lhsIdx (ix3 b n m)
      ((contrEquiv1 dot_S128x200x256_S128x200x256_S128x200x200_2_2_1_1_0_0 256 rfl rfl).symm c) = ix3 b n c := by
    funext a; apply Fin.ext
    match a with
    | ⟨0, _⟩ => exact lhs_score_0 _ _
    | ⟨1, _⟩ => exact lhs_score_1 _ _
    | ⟨2, _⟩ => exact (lhs_score_2 _ _).trans (contrEquiv1_symm_val _ _ _ _ c)
  have hr : dot_S128x200x256_S128x200x256_S128x200x200_2_2_1_1_0_0.rhsIdx (ix3 b n m)
      ((contrEquiv1 dot_S128x200x256_S128x200x256_S128x200x200_2_2_1_1_0_0 256 rfl rfl).symm c) = ix3 b m c := by
    funext a; apply Fin.ext
    match a with
    | ⟨0, _⟩ => exact rhs_score_0 _ _
    | ⟨1, _⟩ => exact rhs_score_1 _ _
    | ⟨2, _⟩ => exact (rhs_score_2 _ _).trans (contrEquiv1_symm_val _ _ _ _ c)
  rw [hl, hr]

/-- The scores at an entry. -/
theorem scoreR_apply (h : FVec Ideal S128x200x256 .f32) (b : Fin 128) (n m : Fin 200) : scoreR h (ix3 b n m) = score (slab h b) n m := by
  unfold scoreR
  rw [mulf_apply, scoreDot_apply, broadcastInDim_scalar_apply, constant_apply]
  rfl

/-! ## The embedding's product: where its operands are read -/

theorem lhs_embed_0 (j : S128x200x256.Idx) (k : dot_S128x200x8_S8x256_S128x200x256_2_0_01_1_n_n.contr.Idx) :
    (dot_S128x200x8_S8x256_S128x200x256_2_0_01_1_n_n.lhsIdx j k 0).val = (j 0).val := rfl
theorem lhs_embed_1 (j : S128x200x256.Idx) (k : dot_S128x200x8_S8x256_S128x200x256_2_0_01_1_n_n.contr.Idx) :
    (dot_S128x200x8_S8x256_S128x200x256_2_0_01_1_n_n.lhsIdx j k 1).val = (j 1).val := rfl
theorem lhs_embed_2 (j : S128x200x256.Idx) (k : dot_S128x200x8_S8x256_S128x200x256_2_0_01_1_n_n.contr.Idx) :
    (dot_S128x200x8_S8x256_S128x200x256_2_0_01_1_n_n.lhsIdx j k 2).val = (k ⟨0, by decide⟩).val :=
  dot_S128x200x8_S8x256_S128x200x256_2_0_01_1_n_n.lhsIdx_val_of_single rfl j k
theorem rhs_embed_0 (j : S128x200x256.Idx) (k : dot_S128x200x8_S8x256_S128x200x256_2_0_01_1_n_n.contr.Idx) :
    (dot_S128x200x8_S8x256_S128x200x256_2_0_01_1_n_n.rhsIdx j k 0).val = (k ⟨0, by decide⟩).val :=
  dot_S128x200x8_S8x256_S128x200x256_2_0_01_1_n_n.rhsIdx_val_of_single rfl j k
theorem rhs_embed_1 (j : S128x200x256.Idx) (k : dot_S128x200x8_S8x256_S128x200x256_2_0_01_1_n_n.contr.Idx) :
    (dot_S128x200x8_S8x256_S128x200x256_2_0_01_1_n_n.rhsIdx j k 1).val = (j 2).val := rfl

/-- The embedding's product at an entry: the jet's node row against the weight's column. -/
theorem embedDot_apply (jets : FVec Ideal S128x200x8 .f32) (wE : FVec Ideal S8x256 .f32) (b : Fin 128) (n : Fin 200) (k : Fin 256) :
    Host.dotGeneral (F := Ideal) dot_S128x200x8_S8x256_S128x200x256_2_0_01_1_n_n none jets wE (ix3 b n k)
      = ∑ c : Fin 8, jets (ix3 b n c) * wE (ix2 c k) := by
  refine (Ideal.dotGeneral_apply _ _ _ jets wE (ix3 b n k)).trans ?_
  rw [← Equiv.sum_comp (contrEquiv1 dot_S128x200x8_S8x256_S128x200x256_2_0_01_1_n_n 8 rfl rfl).symm]
  refine Finset.sum_congr rfl fun c _ => ?_
  have hl : dot_S128x200x8_S8x256_S128x200x256_2_0_01_1_n_n.lhsIdx (ix3 b n k)
      ((contrEquiv1 dot_S128x200x8_S8x256_S128x200x256_2_0_01_1_n_n 8 rfl rfl).symm c) = ix3 b n c := by
    funext a; apply Fin.ext
    match a with
    | ⟨0, _⟩ => exact lhs_embed_0 _ _
    | ⟨1, _⟩ => exact lhs_embed_1 _ _
    | ⟨2, _⟩ => exact (lhs_embed_2 _ _).trans (contrEquiv1_symm_val _ _ _ _ c)
  have hr : dot_S128x200x8_S8x256_S128x200x256_2_0_01_1_n_n.rhsIdx (ix3 b n k)
      ((contrEquiv1 dot_S128x200x8_S8x256_S128x200x256_2_0_01_1_n_n 8 rfl rfl).symm c) = ix2 c k := by
    funext a; apply Fin.ext
    match a with
    | ⟨0, _⟩ => exact (rhs_embed_0 _ _).trans (contrEquiv1_symm_val _ _ _ _ c)
    | ⟨1, _⟩ => exact rhs_embed_1 _ _
  rw [hl, hr]

/-- The embedding at an entry. -/
theorem embedR_apply (jets : FVec Ideal S128x200x8 .f32) (wE : FVec Ideal S8x256 .f32) (bE : FVec Ideal S256 .f32) (b : Fin 128) (n : Fin 200) (k : Fin 256) :
    embedR jets wE bE (ix3 b n k) = dense (slab jets b) (matOf wE) (vecOf bE) n k := by
  unfold embedR
  show FloatOps.hostUnary .tanh (addf (Host.dotGeneral dot_S128x200x8_S8x256_S128x200x256_2_0_01_1_n_n none jets wE) (biasR bE) (ix3 b n k)) = _
  rw [Ideal.hostUnary_tanh_def, addf_apply, embedDot_apply, biasR_apply]
  rfl

/-! ## Along a row of scores -/

/-- Dropping the last axis of the scores' shape leaves the jet and node axes. -/
theorem reduces_row : S128x200x200.Reduces [2] S128x200 := by decide

/-- A jet-and-node index with the row's position put back. -/
theorem lift_row (b : Fin 128) (n : Fin 200) (k : Fin (S128x200x200.size 2)) :
    reduces_row.lift (ix2 b n) k = ix3 b n (⟨k.val, k.isLt⟩ : Fin 200) := by
  funext c; apply Fin.ext
  match c with
  | ⟨0, _⟩ => rfl
  | ⟨1, _⟩ => rfl
  | ⟨2, _⟩ => rfl

/-- The greater of a value and a fold of maxima begun at that value is the fold. -/
theorem max_fold_self {ι : Type} (s : Finset ι) (a : EReal) (f : ι → EReal) : max a (s.fold max a f) = s.fold max a f :=
  max_eq_right ((Finset.le_fold_max a).mpr (Or.inl le_rfl))

/-- The reference's greatest score along a row: the fold of maxima from the floor. -/
theorem rowMaxR_apply (l : FVec Ideal S128x200x200 .f32) (b : Fin 128) (n : Fin 200) :
    maximumf (broadcastInDim S128x200 ![] bcast_S_S128x200 (constant (F := Ideal) S_ .f32 0xFF800000#32))
      (Host.reduce FloatOps.maximumf l (constant (F := Ideal) S_ .f32 0xFF800000#32) reducesTo_S128x200x200_S128x200_d2 h_S_) (ix2 b n)
      = rowMax (slab l b) n := by
  rw [maximumf_apply, broadcastInDim_scalar_apply, constant_apply,
    Host.reduce_eq_fold_single FloatOps.maximumf l _ reducesTo_S128x200x200_S128x200_d2 reduces_row h_S_ (ix2 b n), constant_apply]
  have hf : (l ∘ reduces_row.lift (ix2 b n)) = slab l b n := by
    funext k; exact congrArg l (lift_row b n k)
  rw [hf]
  exact max_fold_self _ _ _

/-- The exponentials at an entry: of the score less its row's greatest. -/
theorem expR_apply (l : FVec Ideal S128x200x200 .f32) (b : Fin 128) (n m : Fin 200) :
    expR l (ix3 b n m) = Ideal.exp (l (ix3 b n m) - rowMax (slab l b) n) := by
  unfold expR
  show FloatOps.hostUnary .exp (subf l (alongRowR _) (ix3 b n m)) = _
  rw [Ideal.hostUnary_exp_def, subf_apply, alongRowR_apply, rowMaxR_apply]

/-- The reference's sum along a row. -/
theorem rowSumR_apply (e : FVec Ideal S128x200x200 .f32) (b : Fin 128) (n : Fin 200) :
    Host.reduceAdd e (constant (F := Ideal) S_ .f32 0x00000000#32) reducesTo_S128x200x200_S128x200_d2 h_S_ (ix2 b n)
      = ∑ m : Fin 200, e (ix3 b n m) := by
  rw [hostReduceAdd_apply, Ideal.hostReduceAdd_single reducesTo_S128x200x200_S128x200_d2 reduces_row, constant_apply,
    Ideal.ofBits_zero_f32, zero_add]
  exact Finset.sum_congr rfl fun k _ => congrArg e (lift_row b n k)

/-- Each row over its sum, at an entry. -/
theorem normR_apply (e : FVec Ideal S128x200x200 .f32) (b : Fin 128) (n m : Fin 200) :
    normR e (ix3 b n m) = Ideal.div (e (ix3 b n m)) (∑ m' : Fin 200, e (ix3 b n m')) := by
  unfold normR
  show FloatOps.hostDivf (e (ix3 b n m)) (alongRowR _ (ix3 b n m)) = _
  rw [Ideal.hostDivf_def, alongRowR_apply, rowSumR_apply]

/-- The rows' weights at an entry. -/
theorem weightsR_apply (h : FVec Ideal S128x200x256 .f32) (b : Fin 128) (n m : Fin 200) :
    weightsR h (ix3 b n m) = weights (score (slab h b)) n m := by
  have hs : slab (scoreR h) b = score (slab h b) := funext fun i => funext fun j => scoreR_apply h b i j
  unfold weightsR
  rw [normR_apply]
  simp only [expR_apply, hs, scoreR_apply]
  rfl

end Cert.ReferenceIdeal.Ref

end
-- ==== Proof.RefDense.lean ====
/-
  The reference's update, read-out layer and pooled read-out, entry by entry: each is the jet's own.
-/
import proofs.«170520_g85813446574462_cont_9to1c4b_288_15_alg».proof.Proof.RefOps
import proofs.«170520_g85813446574462_cont_9to1c4b_288_15_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section
namespace Cert.ReferenceIdeal.Ref

open Idealize.ShloMosaic Idealize.ShloMosaic.ValueIdx Cert.ReferenceIdeal Cert.ReferenceIdeal.Gen Cert.Mpnn

/-- The bias copied to every jet and node reads the bias vector at the column. -/
theorem biasR_entry (b : FVec Ideal S256 .f32) (bi : Fin 128) (n : Fin 200) (k : Fin 256) :
    biasR b (ix3 bi n k) = b (ix1 k) := by
  unfold biasR
  rw [broadcastInDim_apply _ _ _ (ix3 bi n k) (ix3 (0 : Fin 1) (0 : Fin 1) k)
    (fun a => by match a with | ⟨0, _⟩ => rfl | ⟨1, _⟩ => rfl | ⟨2, _⟩ => rfl)]
  rw [broadcastInDim_apply _ _ _ (ix3 (0 : Fin 1) (0 : Fin 1) k) (ix1 k)
    (fun a => by match a with | ⟨0, _⟩ => rfl)]

/-- A stack of 200 × 256 matrices times a 256 × 256 weight, at an entry: the row of the jet's matrix against the weight's column. -/
theorem dotSq_apply (x : FVec Ideal S128x200x256 .f32) (w : FVec Ideal S256x256 .f32) (bi : Fin 128) (n : Fin 200) (k : Fin 256) :
    Host.dotGeneral (F := Ideal) dot_S128x200x256_S256x256_S128x200x256_2_0_01_1_n_n none x w (ix3 bi n k)
      = ∑ c : Fin 256, x (ix3 bi n c) * w (ix2 c k) := by
  simp only [Host.dotGeneral]
  rw [Ideal.dotGeneral_apply]
  rw [← Equiv.sum_comp (contrEquiv1 dot_S128x200x256_S256x256_S128x200x256_2_0_01_1_n_n 256 rfl rfl).symm]
  refine Finset.sum_congr rfl fun c _ => ?_
  have hc := contrEquiv1_symm_val dot_S128x200x256_S256x256_S128x200x256_2_0_01_1_n_n 256 rfl rfl c
  congr 1
  · refine congrArg x (funext fun a => Fin.ext ?_)
    match a with
    | ⟨0, _⟩ => rfl
    | ⟨1, _⟩ => rfl
    | ⟨2, _⟩ => exact hc
  · refine congrArg w (funext fun a => Fin.ext ?_)
    match a with
    | ⟨0, _⟩ => exact hc
    | ⟨1, _⟩ => rfl

/-- The sum over the 200 nodes, from the zero word: at jet and column, the plain sum over the nodes. -/
theorem sumNodes_apply (x : FVec Ideal S128x200x256 .f32) (bi : Fin 128) (k : Fin 256) :
    Host.reduceAdd (F := Ideal) x (constant (F := Ideal) S_ .f32 0x00000000#32) reducesTo_S128x200x256_S128x256_d1 h_S_ (ix2 bi k)
      = ∑ n : Fin 200, x (ix3 bi n k) := by
  have hR : S128x200x256.Reduces [1] S128x256 := by decide
  rw [hostReduceAdd_apply, Ideal.hostReduceAdd_single _ hR]
  rw [constant_apply, Ideal.ofBits_zero_f32, zero_add]
  refine Finset.sum_congr rfl fun n _ => congrArg x (funext fun a => Fin.ext ?_)
  match a with
  | ⟨0, _⟩ => rfl
  | ⟨1, _⟩ => rfl
  | ⟨2, _⟩ => rfl

/-- The word both programs spell for the number of nodes is the number 200. -/
theorem nodesLit_eq : nodesLit = ((200 : ℕ) : EReal) := by
  have h : Ideal.ofBits .f32 0x43480000#32 = ((200 : ℝ) : EReal) := by
    simp [Ideal.ofBits, Ideal.ieee, -EReal.coe_mul]; norm_num
  unfold nodesLit
  rw [h]
  norm_cast

/-- The batched product of the rows' weights and the hidden rows, at an entry: the jet's own message. -/
theorem dotMsg_apply (a : FVec Ideal S128x200x200 .f32) (h : FVec Ideal S128x200x256 .f32) (bi : Fin 128) (n : Fin 200) (c : Fin 256) :
    Host.dotGeneral (F := Ideal) dot_S128x200x200_S128x200x256_S128x200x256_2_1_1_2_0_0 none a h (ix3 bi n c)
      = ∑ j : Fin 200, a (ix3 bi n j) * h (ix3 bi j c) := by
  simp only [Host.dotGeneral]
  rw [Ideal.dotGeneral_apply]
  rw [← Equiv.sum_comp (contrEquiv1 dot_S128x200x200_S128x200x256_S128x200x256_2_1_1_2_0_0 200 rfl rfl).symm]
  refine Finset.sum_congr rfl fun j _ => ?_
  have hj := contrEquiv1_symm_val dot_S128x200x200_S128x200x256_S128x200x256_2_1_1_2_0_0 200 rfl rfl j
  congr 1
  · refine congrArg a (funext fun x => Fin.ext ?_)
    match x with
    | ⟨0, _⟩ => rfl
    | ⟨1, _⟩ => rfl
    | ⟨2, _⟩ => exact hj
  · refine congrArg h (funext fun x => Fin.ext ?_)
    match x with
    | ⟨0, _⟩ => rfl
    | ⟨1, _⟩ => exact hj
    | ⟨2, _⟩ => rfl

/-- A stack of 200 × 512 matrices times the 512 × 256 weight, at an entry. -/
theorem dotWide_apply (x : FVec Ideal S128x200x512 .f32) (w : FVec Ideal S512x256 .f32) (bi : Fin 128) (n : Fin 200) (k : Fin 256) :
    Host.dotGeneral (F := Ideal) dot_S128x200x512_S512x256_S128x200x256_2_0_01_1_n_n none x w (ix3 bi n k)
      = ∑ c : Fin 512, x (ix3 bi n c) * w (ix2 c k) := by
  simp only [Host.dotGeneral]
  rw [Ideal.dotGeneral_apply]
  rw [← Equiv.sum_comp (contrEquiv1 dot_S128x200x512_S512x256_S128x200x256_2_0_01_1_n_n 512 rfl rfl).symm]
  refine Finset.sum_congr rfl fun c _ => ?_
  have hc := contrEquiv1_symm_val dot_S128x200x512_S512x256_S128x200x256_2_0_01_1_n_n 512 rfl rfl c
  congr 1
  · refine congrArg x (funext fun a => Fin.ext ?_)
    match a with
    | ⟨0, _⟩ => rfl
    | ⟨1, _⟩ => rfl
    | ⟨2, _⟩ => exact hc
  · refine congrArg w (funext fun a => Fin.ext ?_)
    match a with
    | ⟨0, _⟩ => exact hc
    | ⟨1, _⟩ => rfl

/-- The two stacks side by side, read in the first 256 columns: the first stack. -/
theorem sideBySide_left (x y : FVec Ideal S128x200x256 .f32) (bi : Fin 128) (n : Fin 200) (c : Fin 256) :
    concatenate S128x200x512 2 [⟨S128x200x256, x⟩, ⟨S128x200x256, y⟩] concatenates_S128x200x256_S128x200x256_S128x200x512_d2
      (ix3 bi n (Fin.castAdd 256 c)) = x (ix3 bi n c) :=
  concatenate_pair_apply_left (2 : Fin S128x200x512.rank) x y _ (ix3 bi n (Fin.castAdd 256 c)) rfl (ix3 bi n c)
    (fun b => by match b with | ⟨0, _⟩ => rfl | ⟨1, _⟩ => rfl | ⟨2, _⟩ => rfl)

/-- The two stacks side by side, read in the last 256 columns: the second stack. -/
theorem sideBySide_right (x y : FVec Ideal S128x200x256 .f32) (bi : Fin 128) (n : Fin 200) (c : Fin 256) :
    concatenate S128x200x512 2 [⟨S128x200x256, x⟩, ⟨S128x200x256, y⟩] concatenates_S128x200x256_S128x200x256_S128x200x512_d2
      (ix3 bi n (Fin.natAdd 256 c)) = y (ix3 bi n c) :=
  concatenate_pair_apply_right (2 : Fin S128x200x512.rank) x y _ (ix3 bi n (Fin.natAdd 256 c)) rfl rfl (ix3 bi n c)
    (fun b hb => by
      match b, hb with
      | ⟨0, _⟩, _ => rfl
      | ⟨1, _⟩, _ => rfl
      | ⟨2, _⟩, hb => exact absurd rfl hb)
    (Nat.add_comm _ _)

/-- A sum over 512 terms is the sum of its first 256 and its last 256. -/
theorem sum_halves (f : Fin 512 → EReal) :
    ∑ c : Fin 512, f c = (∑ c : Fin 256, f (Fin.castAdd 256 c)) + ∑ c : Fin 256, f (Fin.natAdd 256 c) :=
  @Fin.sum_univ_add EReal _ 256 256 f

/-- The update at an entry. -/
theorem updateR_apply (w : FVec Ideal S512x256 .f32) (b : FVec Ideal S256 .f32) (h : FVec Ideal S128x200x256 .f32) (a : FVec Ideal S128x200x200 .f32)
    (bi : Fin 128) (n : Fin 200) (k : Fin 256) :
    updateR w b h a (ix3 bi n k) = update (matOf w) (vecOf b) (slab h bi) (message (slab a bi) (slab h bi)) n k := by
  unfold updateR
  show FloatOps.hostUnary .tanh (addf (Host.dotGeneral dot_S128x200x512_S512x256_S128x200x256_2_0_01_1_n_n none
    (concatenate S128x200x512 2 [⟨S128x200x256, h⟩,
      ⟨S128x200x256, (Host.dotGeneral dot_S128x200x200_S128x200x256_S128x200x256_2_1_1_2_0_0 none a h)⟩]
      concatenates_S128x200x256_S128x200x256_S128x200x512_d2) w) (biasR b) (ix3 bi n k)) = _
  rw [Ideal.hostUnary_tanh_def, addf_apply, dotWide_apply, biasR_entry, sum_halves]
  simp only [sideBySide_left, sideBySide_right, dotMsg_apply]
  rfl

/-- The read-out's first layer at an entry. -/
theorem readHiddenR_apply (w : FVec Ideal S256x256 .f32) (b : FVec Ideal S256 .f32) (h : FVec Ideal S128x200x256 .f32) (bi : Fin 128) (n : Fin 200) (k : Fin 256) :
    readHiddenR w b h (ix3 bi n k) = dense (slab h bi) (matOf w) (vecOf b) n k := by
  unfold readHiddenR
  show FloatOps.hostUnary .tanh (addf (Host.dotGeneral dot_S128x200x256_S256x256_S128x200x256_2_0_01_1_n_n none h w) (biasR b) (ix3 bi n k)) = _
  rw [Ideal.hostUnary_tanh_def, addf_apply, dotSq_apply, biasR_entry]
  rfl

/-- The pooled read-out at an entry. -/
theorem pooledR_apply (w : FVec Ideal S256x256 .f32) (b : FVec Ideal S256 .f32) (r : FVec Ideal S128x200x256 .f32) (bi : Fin 128) (k : Fin 256) :
    pooledR w b r (ix2 bi k) = pooled (matOf w) (vecOf b) (slab r bi) k := by
  unfold pooledR
  rw [sumNodes_apply]
  have hn : ∀ n : Fin 200, addf (Host.dotGeneral dot_S128x200x256_S256x256_S128x200x256_2_0_01_1_n_n none r w) (biasR b) (ix3 bi n k)
      = (∑ c : Fin 256, r (ix3 bi n c) * w (ix2 c k)) + b (ix1 k) := fun n => by
    rw [addf_apply, dotSq_apply, biasR_entry]
  rw [Finset.sum_congr rfl (fun n _ => hn n)]
  rw [Finset.sum_add_distrib, Finset.sum_const, Finset.card_univ, Fintype.card_fin, EReal.nsmul_eq_mul, ← nodesLit_eq]
  rfl

end Cert.ReferenceIdeal.Ref

end
-- ==== Proof.RefValue.lean ====
/-
  The reference's two results, entry by entry, are the network's results for the entry's jet: the steps of
  RefAttn and RefDense composed along the chain.
-/
import proofs.«170520_g85813446574462_cont_9to1c4b_288_15_alg».proof.Proof.RefAttn
import proofs.«170520_g85813446574462_cont_9to1c4b_288_15_alg».proof.Proof.RefDense

set_option maxRecDepth 16384

noncomputable section
namespace Cert.ReferenceIdeal.Ref

open Idealize.ShloMosaic Idealize.ShloMosaic.ValueIdx Cert.ReferenceIdeal Cert.ReferenceIdeal.Gen Cert.Mpnn

/-- The reference's weight arrays as the network's parameters. -/
def paramsOfArgs (a : Args Ideal) : Params :=
  paramsOf a.wE a.bE a.w0 a.b0 a.w1 a.b1 a.w2 a.b2 a.wR1 a.bR1 a.wR2 a.bR2

/-- One round, jet by jet. -/
theorem roundR_slab (w : FVec Ideal S512x256 .f32) (b : FVec Ideal S256 .f32) (h : FVec Ideal S128x200x256 .f32) (bi : Fin 128) :
    slab (roundR w b h) bi = mpRound (matOf w) (vecOf b) (slab h bi) := by
  funext n k
  show roundR w b h (ix3 bi n k) = _
  unfold roundR mpRound
  rw [updateR_apply]
  exact congrArg (fun a => update (matOf w) (vecOf b) (slab h bi) (message a (slab h bi)) n k)
    (funext fun i => funext fun j => weightsR_apply h bi i j)

/-- The hidden rows after the embedding and two rounds, jet by jet. -/
theorem hidden2R_slab (a : Args Ideal) (bi : Fin 128) :
    slab (hidden2R a) bi = hidden2 (paramsOfArgs a) (jetOf a.jets bi) := by
  unfold hidden2R hidden2
  rw [roundR_slab, roundR_slab]
  exact congrArg (fun h0 => mpRound (matOf a.w1) (vecOf a.b1) (mpRound (matOf a.w0) (vecOf a.b0) h0))
    (funext fun n => funext fun k => embedR_apply a.jets a.wE a.bE bi n k)

/-- The reference's second result is the array of the jets' last weights. -/
theorem lastWeightsR_eq (a : Args Ideal) : lastWeightsR a = weightsArr (paramsOfArgs a) a.jets := by
  funext i
  obtain ⟨bi, n, m, rfl⟩ : ∃ (bi : Fin 128) (n m : Fin 200), i = ix3 bi n m := ⟨i 0, i 1, i 2, eq_ix3 i⟩
  rw [weightsArr_ix3]
  unfold lastWeightsR lastWeights
  rw [weightsR_apply, hidden2R_slab]

/-- The reference's first result is the array of the jets' read-outs. -/
theorem readoutR_eq (a : Args Ideal) : readoutR a = readoutArr (paramsOfArgs a) a.jets := by
  funext i
  obtain ⟨bi, k, rfl⟩ : ∃ (bi : Fin 128) (k : Fin 256), i = ix2 bi k := ⟨i 0, i 1, eq_ix2 i⟩
  rw [readoutArr_ix2]
  unfold readoutR readout
  rw [pooledR_apply]
  have e1 : slab (readHiddenR a.wR1 a.bR1 (roundR a.w2 a.b2 (hidden2R a))) bi
      = dense (slab (roundR a.w2 a.b2 (hidden2R a)) bi) (matOf a.wR1) (vecOf a.bR1) :=
    funext fun n => funext fun k => readHiddenR_apply a.wR1 a.bR1 _ bi n k
  rw [e1, roundR_slab, hidden2R_slab]
  rfl

end Cert.ReferenceIdeal.Ref

end
-- ==== Proof.RefRun.lean ====
/-
  The reference's run, read back over the network's steps.

  The reference's 93 host operations run in order from the arguments. Read stretch by stretch — a cut before each
  of the three places where the hidden rows and the messages are laid side by side — each stretch leaves in its
  result buffers the step of Proof/RefOps.lean applied to what the stretch found, and leaves the arguments it does
  not write as they were; composed, the two result buffers end at the network's compositions of the arguments.
-/
import proofs.«170520_g85813446574462_cont_9to1c4b_288_15_alg».proof.Proof.RefRunGen
import proofs.«170520_g85813446574462_cont_9to1c4b_288_15_alg».proof.Proof.RefOps
import Idealize.ShloMosaic.Lib.Pipeline.Frame

set_option maxRecDepth 16384

noncomputable section

namespace Cert.ReferenceIdeal.Ref

open Cert.ReferenceIdeal Cert.ReferenceIdeal.Gen Cert.ReferenceIdeal.RunCopy Idealize.ShloMosaic Idealize.ShloMosaic.TcCoe Idealize.SL.Sem Idealize.ShloMosaic.StableHlo

variable {F : FTy → Type} [FloatOps F]

/-- The messages: the rows' weights times the hidden rows, jet by jet. -/
def msgR (h : FVec F S128x200x256 .f32) : FVec F S128x200x256 .f32 :=
  Host.dotGeneral dot_S128x200x200_S128x200x256_S128x200x256_2_1_1_2_0_0 none (weightsR h) h

/-- The update from the hidden rows and messages already formed. -/
def joinR (w : FVec F S512x256 .f32) (b : FVec F S256 .f32) (h msg : FVec F S128x200x256 .f32) : FVec F S128x200x256 .f32 :=
  Host.tanh (addf (Host.dotGeneral dot_S128x200x512_S512x256_S128x200x256_2_0_01_1_n_n none
    (concatenate S128x200x512 2 [⟨S128x200x256, h⟩, ⟨S128x200x256, msg⟩] concatenates_S128x200x256_S128x200x256_S128x200x512_d2) w) (biasR b))

/-- One round is the update from the hidden rows and their messages. -/
theorem roundR_eq (w : FVec F S512x256 .f32) (b : FVec F S256 .f32) (h : FVec F S128x200x256 .f32) :
    roundR w b h = joinR w b h (msgR h) := rfl

/-- Running a line of operations is running its first `n` and then the rest. -/
theorem after_split (n : Nat) (l : List (HloOp τ sig (Elt F))) (V : Valuation τ sig (Elt F)) :
    after l V = after (l.drop n) (after (l.take n) V) := by
  rw [← StableHlo.after_append, List.take_append_drop]

/-- The first stretch (operations 1 … 26): the embedding and the first round's messages. -/
theorem stretchA (V : Valuation τ sig (Elt F)) :
    after (((ops.take 76).take 51).take 26) V (Proc.devRef .tc main_v4) = embedR (V (Proc.devRef .tc main_arg0)) (V (Proc.devRef .tc main_arg1)) (V (Proc.devRef .tc main_arg2))
    ∧ after (((ops.take 76).take 51).take 26) V (Proc.devRef .tc main_v20) = msgR (embedR (V (Proc.devRef .tc main_arg0)) (V (Proc.devRef .tc main_arg1)) (V (Proc.devRef .tc main_arg2)))
    ∧ after (((ops.take 76).take 51).take 26) V (Proc.devRef .tc main_arg3) = V (Proc.devRef .tc main_arg3)
    ∧ after (((ops.take 76).take 51).take 26) V (Proc.devRef .tc main_arg4) = V (Proc.devRef .tc main_arg4)
    ∧ after (((ops.take 76).take 51).take 26) V (Proc.devRef .tc main_arg5) = V (Proc.devRef .tc main_arg5)
    ∧ after (((ops.take 76).take 51).take 26) V (Proc.devRef .tc main_arg6) = V (Proc.devRef .tc main_arg6)
    ∧ after (((ops.take 76).take 51).take 26) V (Proc.devRef .tc main_arg7) = V (Proc.devRef .tc main_arg7)
    ∧ after (((ops.take 76).take 51).take 26) V (Proc.devRef .tc main_arg8) = V (Proc.devRef .tc main_arg8)
    ∧ after (((ops.take 76).take 51).take 26) V (Proc.devRef .tc main_arg9) = V (Proc.devRef .tc main_arg9)
    ∧ after (((ops.take 76).take 51).take 26) V (Proc.devRef .tc main_arg10) = V (Proc.devRef .tc main_arg10)
    ∧ after (((ops.take 76).take 51).take 26) V (Proc.devRef .tc main_arg11) = V (Proc.devRef .tc main_arg11)
    ∧ after (((ops.take 76).take 51).take 26) V (Proc.devRef .tc main_arg12) = V (Proc.devRef .tc main_arg12) := by
  simp only [ops, List.take_succ_cons, List.take_zero, List.drop_succ_cons, List.drop_zero]
  refine ⟨?_, ?_, ?_, ?_, ?_, ?_, ?_, ?_, ?_, ?_, ?_, ?_⟩ <;> after_results_simp <;> rfl

/-- The second stretch (operations 27 … 51): the first update and the second round's messages. -/
theorem stretchB (V : Valuation τ sig (Elt F)) :
    after (((ops.take 76).take 51).drop 26) V (Proc.devRef .tc main_v26) = joinR (V (Proc.devRef .tc main_arg3)) (V (Proc.devRef .tc main_arg4)) (V (Proc.devRef .tc main_v4)) (V (Proc.devRef .tc main_v20))
    ∧ after (((ops.take 76).take 51).drop 26) V (Proc.devRef .tc main_v41) = msgR (joinR (V (Proc.devRef .tc main_arg3)) (V (Proc.devRef .tc main_arg4)) (V (Proc.devRef .tc main_v4)) (V (Proc.devRef .tc main_v20)))
    ∧ after (((ops.take 76).take 51).drop 26) V (Proc.devRef .tc main_arg5) = V (Proc.devRef .tc main_arg5)
    ∧ after (((ops.take 76).take 51).drop 26) V (Proc.devRef .tc main_arg6) = V (Proc.devRef .tc main_arg6)
    ∧ after (((ops.take 76).take 51).drop 26) V (Proc.devRef .tc main_arg7) = V (Proc.devRef .tc main_arg7)
    ∧ after (((ops.take 76).take 51).drop 26) V (Proc.devRef .tc main_arg8) = V (Proc.devRef .tc main_arg8)
    ∧ after (((ops.take 76).take 51).drop 26) V (Proc.devRef .tc main_arg9) = V (Proc.devRef .tc main_arg9)
    ∧ after (((ops.take 76).take 51).drop 26) V (Proc.devRef .tc main_arg10) = V (Proc.devRef .tc main_arg10)
    ∧ after (((ops.take 76).take 51).drop 26) V (Proc.devRef .tc main_arg11) = V (Proc.devRef .tc main_arg11)
    ∧ after (((ops.take 76).take 51).drop 26) V (Proc.devRef .tc main_arg12) = V (Proc.devRef .tc main_arg12) := by
  simp only [ops, List.take_succ_cons, List.take_zero, List.drop_succ_cons, List.drop_zero]
  refine ⟨?_, ?_, ?_, ?_, ?_, ?_, ?_, ?_, ?_, ?_⟩ <;> after_results_simp <;> rfl

/-- The third stretch (operations 52 … 76): the second update, the last round's weights and its messages. -/
theorem stretchC (V : Valuation τ sig (Elt F)) :
    after ((ops.take 76).drop 51) V (Proc.devRef .tc main_v47) = joinR (V (Proc.devRef .tc main_arg5)) (V (Proc.devRef .tc main_arg6)) (V (Proc.devRef .tc main_v26)) (V (Proc.devRef .tc main_v41))
    ∧ after ((ops.take 76).drop 51) V (Proc.devRef .tc main_v62) = msgR (joinR (V (Proc.devRef .tc main_arg5)) (V (Proc.devRef .tc main_arg6)) (V (Proc.devRef .tc main_v26)) (V (Proc.devRef .tc main_v41)))
    ∧ after ((ops.take 76).drop 51) V (Proc.devRef .tc main_v61) = weightsR (joinR (V (Proc.devRef .tc main_arg5)) (V (Proc.devRef .tc main_arg6)) (V (Proc.devRef .tc main_v26)) (V (Proc.devRef .tc main_v41)))
    ∧ after ((ops.take 76).drop 51) V (Proc.devRef .tc main_arg7) = V (Proc.devRef .tc main_arg7)
    ∧ after ((ops.take 76).drop 51) V (Proc.devRef .tc main_arg8) = V (Proc.devRef .tc main_arg8)
    ∧ after ((ops.take 76).drop 51) V (Proc.devRef .tc main_arg9) = V (Proc.devRef .tc main_arg9)
    ∧ after ((ops.take 76).drop 51) V (Proc.devRef .tc main_arg10) = V (Proc.devRef .tc main_arg10)
    ∧ after ((ops.take 76).drop 51) V (Proc.devRef .tc main_arg11) = V (Proc.devRef .tc main_arg11)
    ∧ after ((ops.take 76).drop 51) V (Proc.devRef .tc main_arg12) = V (Proc.devRef .tc main_arg12) := by
  simp only [ops, List.take_succ_cons, List.take_zero, List.drop_succ_cons, List.drop_zero]
  refine ⟨?_, ?_, ?_, ?_, ?_, ?_, ?_, ?_, ?_⟩ <;> after_results_simp <;> rfl

/-- The last stretch (operations 77 … 93): the third update and the read-out; the last round's weights stay. -/
theorem stretchD (V : Valuation τ sig (Elt F)) :
    after (ops.drop 76) V (Proc.devRef .tc main_v78)
      = pooledR (V (Proc.devRef .tc main_arg11)) (V (Proc.devRef .tc main_arg12)) (readHiddenR (V (Proc.devRef .tc main_arg9)) (V (Proc.devRef .tc main_arg10)) (joinR (V (Proc.devRef .tc main_arg7)) (V (Proc.devRef .tc main_arg8)) (V (Proc.devRef .tc main_v47)) (V (Proc.devRef .tc main_v62))))
    ∧ after (ops.drop 76) V (Proc.devRef .tc main_v61) = V (Proc.devRef .tc main_v61) := by
  simp only [ops, List.take_succ_cons, List.take_zero, List.drop_succ_cons, List.drop_zero]
  refine ⟨?_, ?_⟩ <;> after_results_simp <;> rfl

/-- The arguments as core `c` holds them when the program starts. -/
def argsOf (m : (ℓ : Loc nD τ sig) → Buf (Elt F) ℓ) (c : Dev nD) : Args F :=
  ⟨launchContents m c (Proc.devRef .tc main_arg0), launchContents m c (Proc.devRef .tc main_arg1), launchContents m c (Proc.devRef .tc main_arg2),
   launchContents m c (Proc.devRef .tc main_arg3), launchContents m c (Proc.devRef .tc main_arg4), launchContents m c (Proc.devRef .tc main_arg5),
   launchContents m c (Proc.devRef .tc main_arg6), launchContents m c (Proc.devRef .tc main_arg7), launchContents m c (Proc.devRef .tc main_arg8),
   launchContents m c (Proc.devRef .tc main_arg9), launchContents m c (Proc.devRef .tc main_arg10), launchContents m c (Proc.devRef .tc main_arg11),
   launchContents m c (Proc.devRef .tc main_arg12)⟩

/-- The two result buffers after all the operations: the network's compositions of the arguments. -/
theorem after_results_eq (V : Valuation τ sig (Elt F)) :
    after ops V (Proc.devRef .tc main_v78)
      = readoutR ⟨(V (Proc.devRef .tc main_arg0)), (V (Proc.devRef .tc main_arg1)), (V (Proc.devRef .tc main_arg2)), (V (Proc.devRef .tc main_arg3)), (V (Proc.devRef .tc main_arg4)), (V (Proc.devRef .tc main_arg5)), (V (Proc.devRef .tc main_arg6)), (V (Proc.devRef .tc main_arg7)), (V (Proc.devRef .tc main_arg8)), (V (Proc.devRef .tc main_arg9)), (V (Proc.devRef .tc main_arg10)), (V (Proc.devRef .tc main_arg11)), (V (Proc.devRef .tc main_arg12))⟩
    ∧ after ops V (Proc.devRef .tc main_v61)
      = lastWeightsR ⟨(V (Proc.devRef .tc main_arg0)), (V (Proc.devRef .tc main_arg1)), (V (Proc.devRef .tc main_arg2)), (V (Proc.devRef .tc main_arg3)), (V (Proc.devRef .tc main_arg4)), (V (Proc.devRef .tc main_arg5)), (V (Proc.devRef .tc main_arg6)), (V (Proc.devRef .tc main_arg7)), (V (Proc.devRef .tc main_arg8)), (V (Proc.devRef .tc main_arg9)), (V (Proc.devRef .tc main_arg10)), (V (Proc.devRef .tc main_arg11)), (V (Proc.devRef .tc main_arg12))⟩ := by
  rw [after_split 76 ops V, after_split 51 (ops.take 76) V, after_split 26 ((ops.take 76).take 51) V]
  obtain ⟨a4, a20, a3, a4', a5, a6, a7, a8, a9, a10, a11, a12⟩ := stretchA V
  obtain ⟨b26, b41, b5, b6, b7, b8, b9, b10, b11, b12⟩ := stretchB (after (((ops.take 76).take 51).take 26) V)
  obtain ⟨c47, c62, c61, c7, c8, c9, c10, c11, c12⟩ :=
    stretchC (after (((ops.take 76).take 51).drop 26) (after (((ops.take 76).take 51).take 26) V))
  obtain ⟨d78, d61⟩ := stretchD (after ((ops.take 76).drop 51)
    (after (((ops.take 76).take 51).drop 26) (after (((ops.take 76).take 51).take 26) V)))
  refine ⟨?_, ?_⟩
  · rw [d78, c47, c62, c7, c8, c9, c10, c11, c12, b26, b41, b5, b6, b7, b8, b9, b10, b11, b12, a4, a20, a3, a4', a5, a6, a7, a8, a9, a10, a11, a12]
    rfl
  · rw [d61, c61, b26, b41, b5, b6, a4, a20, a3, a4', a5, a6]
    rfl

set_option maxHeartbeats 40000000 in
/-- The reference's run: it ends with its two results at the network's compositions of the arguments, the arguments
    unchanged (no operation writes an argument). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = readoutR (argsOf m c)
      ∧ r.2.mem ((c.tc : Thread nD τ).loc main_v61) = lastWeightsR (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v78).trans (after_results_eq (launchContents m c)).1,
      (h c main_v61).trans (after_results_eq (launchContents m c)).2,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.Ref

end
-- ==== Proof.lean ====
/-
  The certificate's claim: the kernel and the reference compute, for every jet of the batch, the same network.

  Both programs end with two arrays: a read-out of 256 numbers per jet and, per jet, the 200 × 200 weights of the last
  round of message passing. Over the extended reals each of them is a function of the jet's own 200 × 8 features
  and the network's weights alone (Proof/Spec.lean). The kernel computes eight jets per grid point, each by the same chain
  of vector operations (Proof/JetOps.lean, read entry by entry in Proof/JetAttn.lean, Proof/JetDense.lean,
  Proof/JetValue.lean), and its sixteen points' blocks tile the result arrays (Proof/KernelArray.lean). The reference
  computes the whole batch at once with a leading batch axis on every operation (Proof/RefOps.lean), and entry `(b, ·)`
  of each of its stages depends on jet `b` alone (Proof/RefAttn.lean, Proof/RefDense.lean, Proof/RefValue.lean). The
  two sides differ in three places, none of which matters over the extended reals: the kernel narrows matrix operands
  to a shorter float format (the identity here); it multiplies the hidden rows and the messages by the two halves of a
  round's weight where the reference multiplies their concatenation by the whole weight (a sum of 512 terms split in
  two); and it adds 200 times the read-out's bias after summing over the nodes where the reference adds the bias to
  every node before summing (a sum of 200 equal terms is 200 times the term, for every extended real).
  The three frames are the generated ones (the reference's from its run); the idealization rewrote nothing.
-/
import proofs.«170520_g85813446574462_cont_9to1c4b_288_15_alg».proof.Defs
import proofs.«170520_g85813446574462_cont_9to1c4b_288_15_alg».proof.Proof.Gen.Kernel
import proofs.«170520_g85813446574462_cont_9to1c4b_288_15_alg».proof.Proof.Gen.Kernel.Skeleton
import proofs.«170520_g85813446574462_cont_9to1c4b_288_15_alg».proof.Proof.Gen.Kernel.Launch
import proofs.«170520_g85813446574462_cont_9to1c4b_288_15_alg».proof.Proof.Gen.Kernel.Points
import proofs.«170520_g85813446574462_cont_9to1c4b_288_15_alg».proof.Proof.Gen.Kernel.Frame
import proofs.«170520_g85813446574462_cont_9to1c4b_288_15_alg».proof.Proof.Gen.KernelIdeal
import proofs.«170520_g85813446574462_cont_9to1c4b_288_15_alg».proof.Proof.Gen.KernelIdeal.Skeleton
import proofs.«170520_g85813446574462_cont_9to1c4b_288_15_alg».proof.Proof.Gen.KernelIdeal.Launch
import proofs.«170520_g85813446574462_cont_9to1c4b_288_15_alg».proof.Proof.Gen.KernelIdeal.Points
import proofs.«170520_g85813446574462_cont_9to1c4b_288_15_alg».proof.Proof.Gen.KernelIdeal.Frame
import proofs.«170520_g85813446574462_cont_9to1c4b_288_15_alg».proof.Proof.Gen.ReferenceIdeal
import proofs.«170520_g85813446574462_cont_9to1c4b_288_15_alg».proof.Proof.Gen.Pre_finite_inputs
import proofs.«170520_g85813446574462_cont_9to1c4b_288_15_alg».proof.Proof.KernelArray
import proofs.«170520_g85813446574462_cont_9to1c4b_288_15_alg».proof.Proof.RefValue
import proofs.«170520_g85813446574462_cont_9to1c4b_288_15_alg».proof.Proof.RefRun
import Idealize.ShloMosaic.Adequacy
import Idealize.ShloMosaic.Init

set_option maxRecDepth 16384

noncomputable section

namespace Cert.Proof

open Idealize.ShloMosaic Idealize.SL.Sem Cert.Mpnn

/-- Equal weight arrays give equal parameters. -/
theorem paramsOf_congr {a1 a1' : (⟨2, ![8, 256]⟩ : Shape).Idx → EReal} {a2 a2' : (⟨1, ![256]⟩ : Shape).Idx → EReal}
    {a3 a3' : (⟨2, ![512, 256]⟩ : Shape).Idx → EReal} {a4 a4' : (⟨1, ![256]⟩ : Shape).Idx → EReal}
    {a5 a5' : (⟨2, ![512, 256]⟩ : Shape).Idx → EReal} {a6 a6' : (⟨1, ![256]⟩ : Shape).Idx → EReal}
    {a7 a7' : (⟨2, ![512, 256]⟩ : Shape).Idx → EReal} {a8 a8' : (⟨1, ![256]⟩ : Shape).Idx → EReal}
    {a9 a9' : (⟨2, ![256, 256]⟩ : Shape).Idx → EReal} {a10 a10' : (⟨1, ![256]⟩ : Shape).Idx → EReal}
    {a11 a11' : (⟨2, ![256, 256]⟩ : Shape).Idx → EReal} {a12 a12' : (⟨1, ![256]⟩ : Shape).Idx → EReal}
    (h1 : a1 = a1') (h2 : a2 = a2') (h3 : a3 = a3') (h4 : a4 = a4') (h5 : a5 = a5') (h6 : a6 = a6') (h7 : a7 = a7')
    (h8 : a8 = a8') (h9 : a9 = a9') (h10 : a10 = a10') (h11 : a11 = a11') (h12 : a12 = a12') :
    paramsOf a1 a2 a3 a4 a5 a6 a7 a8 a9 a10 a11 a12 = paramsOf a1' a2' a3' a4' a5' a6' a7' a8' a9' a10' a11' a12' := by
  subst h1 h2 h3 h4 h5 h6 h7 h8 h9 h10 h11 h12
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Ref.run (F := Ideal) m ρ)

/-- The idealization rewrote nothing. -/
theorem preserves : Cert.preserves_Kernel_KernelIdeal := trivial

/-- From memories that agree on the thirteen arguments the two programs end with the same two arrays: the jets'
    read-outs and the jets' last weights. -/
theorem algebraic : Cert.algebraic_KernelIdeal_ReferenceIdeal := by
  intro m ρ m' ρ' _ hagree
  refine ⟨fun c => readoutArr (Cert.KernelIdeal.Arr.netParams m c) (Cert.KernelIdeal.Arr.jetsArr m c),
    fun c => weightsArr (Cert.KernelIdeal.Arr.netParams m c) (Cert.KernelIdeal.Arr.jetsArr m c),
    Cert.KernelIdeal.Arr.run m ρ, ?_⟩
  refine (θ_run Cert.ReferenceIdeal.defs _ _).mono (fun r h c => ?_) (Cert.ReferenceIdeal.Ref.run (F := Ideal) m' ρ')
  obtain ⟨h0, h1, h2, h3, h4, h5, h6, h7, h8, h9, h10, h11, h12⟩ := hagree c
  have hj : (Cert.ReferenceIdeal.Ref.argsOf m' c).jets = Cert.KernelIdeal.Arr.jetsArr m c := h0
  have hp : Cert.ReferenceIdeal.Ref.paramsOfArgs (Cert.ReferenceIdeal.Ref.argsOf m' c) = Cert.KernelIdeal.Arr.netParams m c :=
    paramsOf_congr h1 h2 h3 h4 h5 h6 h7 h8 h9 h10 h11 h12
  refine ⟨(h c).1.trans ?_, (h c).2.1.trans ?_, (h c).2.2⟩
  · rw [Cert.ReferenceIdeal.Ref.readoutR_eq, hj, hp]
  · rw [Cert.ReferenceIdeal.Ref.lastWeightsR_eq, hj, hp]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
